-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x1 : Shape := ⟨2, ![131072, 1]⟩
abbrev S256x128 : Shape := ⟨2, ![256, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072x1 : S_.BroadcastsInDim S131072x1 (![] : Fin 0 → Fin S131072x1.rank)
  reducesTo_S131072x1_S_d0_1 : S131072x1.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128x128 .f32) (main_arg12 : FVec F S128 .f32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S131072x128 .f32) (main_arg1 : FVec F S131072x128 .f32) (main_arg2 : FVec F S131072x1 .f32) (main_arg3 : FVec F S256x128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x1 .f32 := Host.absf main_arg2
  let main_cst_2 : FVec F S_ .f32 := constant S_ .f32 0x7F800000#32
  let main_v10 : FVec F S131072x1 .f32 := broadcastInDim S131072x1 ![] bcast_S_S131072x1 main_cst_2
  let main_v11 : IVec S131072x1 1 := cmpf .olt main_v9 main_v10
  let main_c_3 : IVec S_ 1 := constantI S_ 1 1#1
  let main_v12 : IVec S_ 1 := (fun x v => Host.reduce IntOp.andi x v reducesTo_S131072x1_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S131072x128 : Shape := ⟨2, ![131072, 128]⟩
abbrev S131072x1 : Shape := ⟨2, ![131072, 1]⟩
abbrev S256x128 : Shape := ⟨2, ![256, 128]⟩
abbrev S128x128 : Shape := ⟨2, ![128, 128]⟩
abbrev S128 : Shape := ⟨1, ![128]⟩
abbrev S1x128 : Shape := ⟨2, ![1, 128]⟩
abbrev S4096x128 : Shape := ⟨2, ![4096, 128]⟩
abbrev S_ : Shape := ⟨0, ![]⟩
abbrev S4096x1 : Shape := ⟨2, ![4096, 1]⟩

abbrev nBuf : Space → Nat
  | .hbm => 39
  | .vmem => 29
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x1, .f32⟩
  | .hbm, ⟨3, _⟩ => ⟨S256x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S131072x128, .f32⟩
  | .hbm, ⟨18, _⟩ => ⟨S1x128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S4096x128, .f32⟩
  | .local _ .vmem, ⟨8, _⟩ => ⟨S4096x128, .f32⟩
  | .local _ .vmem, ⟨9, _⟩ => ⟨S1x128, .f32⟩
  | .local _ .vmem, ⟨10, _⟩ => ⟨S1x128, .f32⟩
  | .local _ .vmem, ⟨11, _⟩ => ⟨S4096x128, .f32⟩
  | .local _ .vmem, ⟨12, _⟩ => ⟨S4096x128, .f32⟩
  | .local _ .vmem, ⟨13, _⟩ => ⟨S4096x1, .f32⟩
  | .local _ .vmem, ⟨14, _⟩ => ⟨S4096x1, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S4096x128, .f32⟩
  | .local _ .vmem, ⟨28, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2_0 : Ref sig .tc := ⟨.hbm, 17, rfl⟩
abbrev main_v2_1 : Ref sig .tc := ⟨.hbm, 18, rfl⟩
abbrev main_v2_2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem14_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S4096x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  slices_S256x128_S128x128_0_0 : S256x128.Slices ![0, 0] S128x128
  slices_S256x128_S128x128_128_0 : S256x128.Slices ![128, 0] S128x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S4096x128_S128 : S4096x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bcast_S_S1x128 : S_.BroadcastsInDim S1x128 (![] : Fin 0 → Fin S1x128.rank)
  shapeCasts_S4096x128_S4096x128 : S4096x128.ShapeCasts S4096x128
  broadcasts_S1x128_S4096x128 : S1x128.Broadcasts S4096x128
  inb_S4096x1_S4096x1_0_0 : ∀ a, (![0, 0] : Fin 2 → Nat) a + S4096x1.size a ≤ S4096x1.size a
  h_S4096x1 : 0 < S4096x1.numel
  broadcasts_S4096x1_S4096x128 : S4096x1.Broadcasts S4096x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S131072x128.size a
  hwx0_5 : ∀ i : grid0.Coords, EltTy.bits .f32 = 32 ∨ (Rect.block (s := S131072x128) S4096x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S131072x128.size a
  hwx1_0 : ∀ i : grid1.Coords, EltTy.bits .f32 = 32 ∨ (Rect.block (s := S131072x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S131072x1.size a
  hwx1_1 : ∀ i : grid1.Coords, EltTy.bits .f32 = 32 ∨ (Rect.block (s := S131072x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S4096x128.size a ≤ S131072x128.size a
  hwx1_14 : ∀ i : grid1.Coords, EltTy.bits .f32 = 32 ∨ (Rect.block (s := S131072x128) S4096x128.size (cc1_transform_14 i) (hinb1_14 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v16) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg13) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v17) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v18) S4096x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S131072x128 : Shape := ⟨2, ![131072, 128]⟩
abbrev S131072x1 : Shape := ⟨2, ![131072, 1]⟩
abbrev S256x128 : Shape := ⟨2, ![256, 128]⟩
abbrev S128x128 : Shape := ⟨2, ![128, 128]⟩
abbrev S128 : Shape := ⟨1, ![128]⟩
abbrev S131072x256 : Shape := ⟨2, ![131072, 256]⟩
abbrev S_ : Shape := ⟨0, ![]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x1, .f32⟩
  | .hbm, ⟨3, _⟩ => ⟨S256x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S131072x256, .f32⟩
  | .hbm, ⟨16, _⟩ => ⟨S131072x128, .f32⟩
  | .hbm, ⟨17, _⟩ => ⟨S131072x128, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S131072x128, .f32⟩
  | .hbm, ⟨34, _⟩ => ⟨S131072x128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S131072x128, .f32⟩
  | .hbm, ⟨41, _⟩ => ⟨S131072x128, .f32⟩
  | .hbm, ⟨42, _⟩ => ⟨S1x128, .f32⟩
  | .hbm, ⟨43, _⟩ => ⟨S131072x128, .f32⟩
  | .hbm, ⟨44, _⟩ => ⟨S131072x128, .f32⟩
  | .hbm, ⟨45, _⟩ => ⟨S1x128, .f32⟩
  | .hbm, ⟨46, _⟩ => ⟨S131072x128, .f32⟩
  | .hbm, ⟨47, _⟩ => ⟨S131072x128, .f32⟩
  | .hbm, ⟨48, _⟩ => ⟨S_, .f32⟩
  | .hbm, ⟨49, _⟩ => ⟨S131072x128, .f32⟩
  | .hbm, ⟨50, _⟩ => ⟨S131072x128, .i1⟩
  | .hbm, ⟨51, _⟩ => ⟨S_, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S1x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S131072x128, .f32⟩
  | .hbm, ⟨61, _⟩ => ⟨S1x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S1x128, .f32⟩
  | .hbm, ⟨66, _⟩ => ⟨S131072x128, .f32⟩
  | .hbm, ⟨67, _⟩ => ⟨S131072x128, .f32⟩
  | .hbm, ⟨68, _⟩ => ⟨S131072x128, .f32⟩
  | .hbm, ⟨69, _⟩ => ⟨S131072x128, .f32⟩
  | .hbm, ⟨70, _⟩ => ⟨S1x128, .f32⟩
  | .hbm, ⟨71, _⟩ => ⟨S131072x128, .f32⟩
  | .hbm, ⟨72, _⟩ => ⟨S131072x128, .f32⟩
  | .hbm, ⟨73, _⟩ => ⟨S131072x128, .f32⟩
  | .hbm, ⟨74, _⟩ => ⟨S131072x128, .f32⟩
  | .hbm, ⟨75, _⟩ => ⟨S131072x128, .f32⟩
  | .hbm, ⟨76, _⟩ => ⟨S131072x128, .f32⟩
  | .hbm, ⟨77, _⟩ => ⟨S131072x128, .f32⟩
  | .hbm, ⟨78, _⟩ => ⟨S_, .f32⟩
  | .hbm, ⟨79, _⟩ => ⟨S131072x128, .f32⟩
  | .hbm, ⟨80, _⟩ => ⟨S131072x128, .f32⟩
  | .hbm, ⟨81, _⟩ => ⟨S_, .f32⟩
  | .hbm, ⟨82, _⟩ => ⟨S131072x128, .f32⟩
  | .hbm, ⟨83, _⟩ => ⟨S131072x128, .f32⟩
  | .hbm, ⟨84, _⟩ => ⟨S_, .f32⟩
  | .hbm, ⟨85, _⟩ => ⟨S131072x128, .f32⟩
  | .hbm, ⟨86, _⟩ => ⟨S131072x128, .f32⟩
  | .hbm, ⟨87, _⟩ => ⟨S131072x128, .f32⟩
  | .hbm, ⟨88, _⟩ => ⟨S131072x128, .f32⟩
  | .hbm, ⟨89, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  concatenates_S131072x128_S131072x128_S131072x256_d1 : Shape.Concatenates [S131072x128, S131072x128] S131072x256 1
  reducesTo_S131072x128_S128_d0 : S131072x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  dot_S131072x256_S256x128_S131072x128_1_0_0_1_n_n_wf : DotDims.WF S131072x256 S256x128 S131072x128 [1] [0] [0] [1] [] []
  dot_S131072x128_S128x128_S131072x128_1_0_0_1_n_n_wf : DotDims.WF S131072x128 S128x128 S131072x128 [1] [0] [0] [1] [] []

variable [Facts₀]

def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.RefSide.lean ====
/-
  The reference program's run at the exact instance: its result as one term of the argument arrays.
-/
import proofs.«113356_j38199439131313_1_alg».proof.Defs
import proofs.«113356_j38199439131313_1_alg».proof.Proof.Gen.ReferenceIdeal.Run
import proofs.«113356_j38199439131313_1_alg».proof.Proof.Gen.ReferenceIdeal.Read

noncomputable section

namespace Cert.Hand.RefSide

end Cert.Hand.RefSide

end
-- ==== Proof.KBase.lean ====
/-
  The arrays the two kernel regions find when they are entered.

  Region 0 is entered after two host slices: it finds x and h as launched, the top and the bottom 128 rows of W0
  as two arrays of their own, and W1 as launched. It leaves three arrays: z (131072 × 128), and two one-row matrices,
  the column sums of z and of z·z as accumulated over the grid. Region 1 is entered after the host has divided both
  rows by 131072, subtracted the square of the first quotient from the second, added the offset and taken the reciprocal
  square root, and after six vectors have been re-laid as one-row matrices; every other operand is as launched.
-/
import proofs.«113356_j38199439131313_1_alg».proof.Proof.Gen.KernelIdeal.Frame
import Idealize.ShloMosaic.Lib.StableHlo.Run
import Idealize.ShloMosaic.Lib.Pipeline.Value
import Idealize.ShloMosaic.PureOps.Ideal.Laws

noncomputable section

namespace Cert.Hand.KBase

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The launch contents, at their literal types -/

abbrev xA (c : Dev nD) : FVec Ideal S131072x128 .f32 := m ((c.tc : Thread nD τ).loc main_arg0)
abbrev hA (c : Dev nD) : FVec Ideal S131072x128 .f32 := m ((c.tc : Thread nD τ).loc main_arg1)
abbrev tA (c : Dev nD) : FVec Ideal S131072x1 .f32 := m ((c.tc : Thread nD τ).loc main_arg2)
abbrev w0A (c : Dev nD) : FVec Ideal S256x128 .f32 := m ((c.tc : Thread nD τ).loc main_arg3)
abbrev w1A (c : Dev nD) : FVec Ideal S128x128 .f32 := m ((c.tc : Thread nD τ).loc main_arg4)
abbrev gammaA (c : Dev nD) : FVec Ideal S128 .f32 := m ((c.tc : Thread nD τ).loc main_arg5)
abbrev betaA (c : Dev nD) : FVec Ideal S128 .f32 := m ((c.tc : Thread nD τ).loc main_arg6)
abbrev wgA (c : Dev nD) : FVec Ideal S128x128 .f32 := m ((c.tc : Thread nD τ).loc main_arg7)
abbrev bgA (c : Dev nD) : FVec Ideal S128 .f32 := m ((c.tc : Thread nD τ).loc main_arg8)
abbrev wfA (c : Dev nD) : FVec Ideal S128x128 .f32 := m ((c.tc : Thread nD τ).loc main_arg9)
abbrev bfA (c : Dev nD) : FVec Ideal S128 .f32 := m ((c.tc : Thread nD τ).loc main_arg10)
abbrev whA (c : Dev nD) : FVec Ideal S128x128 .f32 := m ((c.tc : Thread nD τ).loc main_arg11)
abbrev bhA (c : Dev nD) : FVec Ideal S128 .f32 := m ((c.tc : Thread nD τ).loc main_arg12)
abbrev wtA (c : Dev nD) : FVec Ideal S128x128 .f32 := m ((c.tc : Thread nD τ).loc main_arg13)
abbrev btA (c : Dev nD) : FVec Ideal S128 .f32 := m ((c.tc : Thread nD τ).loc main_arg14)

/-! ## Region 0's three results -/

/-- z, as region 0 leaves it. -/
abbrev zK (c : Dev nD) : FVec Ideal S131072x128 .f32 := W2 m ρ c (Proc.devRef .tc main_v2_0)
/-- The accumulated column sums of z. -/
abbrev sumK (c : Dev nD) : FVec Ideal S1x128 .f32 := W2 m ρ c (Proc.devRef .tc main_v2_1)
/-- The accumulated column sums of z·z. -/
abbrev sqK (c : Dev nD) : FVec Ideal S1x128 .f32 := W2 m ρ c (Proc.devRef .tc main_v2_2)

/-! ## What region 0 finds -/

theorem V1_x (c : Dev nD) : (V1 m ρ c main_arg0 : FVec Ideal S131072x128 .f32) = xA m c := by
  dsimp only [V1, W1, hostOps0]; after_results
theorem V1_h (c : Dev nD) : (V1 m ρ c main_arg1 : FVec Ideal S131072x128 .f32) = hA m c := by
  dsimp only [V1, W1, hostOps0]; after_results
theorem V1_w0x (c : Dev nD) : (V1 m ρ c main_v0 : FVec Ideal S128x128 .f32)
    = extractStridedSlice S128x128 ![0, 0] (w0A m c) slices_S256x128_S128x128_0_0 := by
  dsimp only [V1, W1, hostOps0]; after_results
theorem V1_w0h (c : Dev nD) : (V1 m ρ c main_v1 : FVec Ideal S128x128 .f32)
    = extractStridedSlice S128x128 ![128, 0] (w0A m c) slices_S256x128_S128x128_128_0 := by
  dsimp only [V1, W1, hostOps0]; after_results
theorem V1_w1 (c : Dev nD) : (V1 m ρ c main_arg4 : FVec Ideal S128x128 .f32) = w1A m c := by
  dsimp only [V1, W1, hostOps0]; after_results

/-! ## What region 1 finds -/

/-- The divisor row: 131072 in every place. -/
abbrev nRow : FVec Ideal S1x128 .f32 := broadcastInDim S1x128 ![] bcast_S_S1x128 (constant (F := Ideal) S_ .f32 0x48000000#32)
/-- The offset row. -/
abbrev epsRow : FVec Ideal S1x128 .f32 := broadcastInDim S1x128 ![] bcast_S_S1x128 (constant (F := Ideal) S_ .f32 0x3727C5AC#32)
/-- The mean row the host computes from the accumulated sums. -/
abbrev meanK (c : Dev nD) : FVec Ideal S1x128 .f32 := Host.divf (sumK m ρ c) nRow
/-- The reciprocal standard deviation row the host computes. -/
abbrev invK (c : Dev nD) : FVec Ideal S1x128 .f32 :=
  Host.rsqrt (addf (subf (Host.divf (sqK m ρ c) nRow) (mulf (meanK m ρ c) (meanK m ρ c))) epsRow)

theorem V3_z (c : Dev nD) : (V3 m ρ c main_v2_0 : FVec Ideal S131072x128 .f32) = zK m ρ c := by
  dsimp only [V3, W3, hostOps1]; after_results
theorem V3_t (c : Dev nD) : (V3 m ρ c main_arg2 : FVec Ideal S131072x1 .f32) = W2 m ρ c (Proc.devRef .tc main_arg2) := by
  dsimp only [V3, W3, hostOps1]; after_results
theorem V3_mean (c : Dev nD) : (V3 m ρ c main_v4 : FVec Ideal S1x128 .f32) = meanK m ρ c := by
  dsimp only [V3, W3, hostOps1]; after_results
theorem V3_inv (c : Dev nD) : (V3 m ρ c main_v11 : FVec Ideal S1x128 .f32) = invK m ρ c := by
  dsimp only [V3, W3, hostOps1]; after_results

/-- An argument no region-0 window writes and no host operation writes is, after region 0, as launched. -/
theorem W2_arg2 (c : Dev nD) : W2 m ρ c (Proc.devRef .tc main_arg2) = m ((c.tc : Thread nD τ).loc main_arg2) :=
  (W2_of_ne m ρ c main_arg2 (by decide)).trans (by dsimp only [W1, hostOps0]; after_results)
theorem W2_arg5 (c : Dev nD) : W2 m ρ c (Proc.devRef .tc main_arg5) = m ((c.tc : Thread nD τ).loc main_arg5) :=
  (W2_of_ne m ρ c main_arg5 (by decide)).trans (by dsimp only [W1, hostOps0]; after_results)
theorem W2_arg6 (c : Dev nD) : W2 m ρ c (Proc.devRef .tc main_arg6) = m ((c.tc : Thread nD τ).loc main_arg6) :=
  (W2_of_ne m ρ c main_arg6 (by decide)).trans (by dsimp only [W1, hostOps0]; after_results)
theorem W2_arg7 (c : Dev nD) : W2 m ρ c (Proc.devRef .tc main_arg7) = m ((c.tc : Thread nD τ).loc main_arg7) :=
  (W2_of_ne m ρ c main_arg7 (by decide)).trans (by dsimp only [W1, hostOps0]; after_results)
theorem W2_arg8 (c : Dev nD) : W2 m ρ c (Proc.devRef .tc main_arg8) = m ((c.tc : Thread nD τ).loc main_arg8) :=
  (W2_of_ne m ρ c main_arg8 (by decide)).trans (by dsimp only [W1, hostOps0]; after_results)
theorem W2_arg9 (c : Dev nD) : W2 m ρ c (Proc.devRef .tc main_arg9) = m ((c.tc : Thread nD τ).loc main_arg9) :=
  (W2_of_ne m ρ c main_arg9 (by decide)).trans (by dsimp only [W1, hostOps0]; after_results)
theorem W2_arg10 (c : Dev nD) : W2 m ρ c (Proc.devRef .tc main_arg10) = m ((c.tc : Thread nD τ).loc main_arg10) :=
  (W2_of_ne m ρ c main_arg10 (by decide)).trans (by dsimp only [W1, hostOps0]; after_results)
theorem W2_arg11 (c : Dev nD) : W2 m ρ c (Proc.devRef .tc main_arg11) = m ((c.tc : Thread nD τ).loc main_arg11) :=
  (W2_of_ne m ρ c main_arg11 (by decide)).trans (by dsimp only [W1, hostOps0]; after_results)
theorem W2_arg12 (c : Dev nD) : W2 m ρ c (Proc.devRef .tc main_arg12) = m ((c.tc : Thread nD τ).loc main_arg12) :=
  (W2_of_ne m ρ c main_arg12 (by decide)).trans (by dsimp only [W1, hostOps0]; after_results)
theorem W2_arg13 (c : Dev nD) : W2 m ρ c (Proc.devRef .tc main_arg13) = m ((c.tc : Thread nD τ).loc main_arg13) :=
  (W2_of_ne m ρ c main_arg13 (by decide)).trans (by dsimp only [W1, hostOps0]; after_results)
theorem W2_arg14 (c : Dev nD) : W2 m ρ c (Proc.devRef .tc main_arg14) = m ((c.tc : Thread nD τ).loc main_arg14) :=
  (W2_of_ne m ρ c main_arg14 (by decide)).trans (by dsimp only [W1, hostOps0]; after_results)

theorem V3_t' (c : Dev nD) : (V3 m ρ c main_arg2 : FVec Ideal S131072x1 .f32) = tA m c :=
  (V3_t m ρ c).trans (W2_arg2 m ρ c)
theorem V3_gamma (c : Dev nD) : (V3 m ρ c main_v12 : FVec Ideal S1x128 .f32) = shapeCast S1x128 (gammaA m c) shapeCasts_S128_S1x128 := by
  have e := W2_arg5 m ρ c
  dsimp only [V3, W3, hostOps1]; after_results; rw [e]; rfl
theorem V3_beta (c : Dev nD) : (V3 m ρ c main_v13 : FVec Ideal S1x128 .f32) = shapeCast S1x128 (betaA m c) shapeCasts_S128_S1x128 := by
  have e := W2_arg6 m ρ c
  dsimp only [V3, W3, hostOps1]; after_results; rw [e]; rfl
theorem V3_bg (c : Dev nD) : (V3 m ρ c main_v14 : FVec Ideal S1x128 .f32) = shapeCast S1x128 (bgA m c) shapeCasts_S128_S1x128 := by
  have e := W2_arg8 m ρ c
  dsimp only [V3, W3, hostOps1]; after_results; rw [e]; rfl
theorem V3_bf (c : Dev nD) : (V3 m ρ c main_v15 : FVec Ideal S1x128 .f32) = shapeCast S1x128 (bfA m c) shapeCasts_S128_S1x128 := by
  have e := W2_arg10 m ρ c
  dsimp only [V3, W3, hostOps1]; after_results; rw [e]; rfl
theorem V3_bh (c : Dev nD) : (V3 m ρ c main_v16 : FVec Ideal S1x128 .f32) = shapeCast S1x128 (bhA m c) shapeCasts_S128_S1x128 := by
  have e := W2_arg12 m ρ c
  dsimp only [V3, W3, hostOps1]; after_results; rw [e]; rfl
theorem V3_bt (c : Dev nD) : (V3 m ρ c main_v17 : FVec Ideal S1x128 .f32) = shapeCast S1x128 (btA m c) shapeCasts_S128_S1x128 := by
  have e := W2_arg14 m ρ c
  dsimp only [V3, W3, hostOps1]; after_results; rw [e]; rfl
theorem V3_wg (c : Dev nD) : (V3 m ρ c main_arg7 : FVec Ideal S128x128 .f32) = wgA m c := by
  have e := W2_arg7 m ρ c
  dsimp only [V3, W3, hostOps1]; after_results; exact e
theorem V3_wf (c : Dev nD) : (V3 m ρ c main_arg9 : FVec Ideal S128x128 .f32) = wfA m c := by
  have e := W2_arg9 m ρ c
  dsimp only [V3, W3, hostOps1]; after_results; exact e
theorem V3_wh (c : Dev nD) : (V3 m ρ c main_arg11 : FVec Ideal S128x128 .f32) = whA m c := by
  have e := W2_arg11 m ρ c
  dsimp only [V3, W3, hostOps1]; after_results; exact e
theorem V3_wt (c : Dev nD) : (V3 m ρ c main_arg13 : FVec Ideal S128x128 .f32) = wtA m c := by
  have e := W2_arg13 m ρ c
  dsimp only [V3, W3, hostOps1]; after_results; exact e

end Cert.Hand.KBase

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Blocks.lean ====
/-
  Blocks of the arrays, and the arrays from their blocks.

  Both kernels walk the 131072 rows in 32 blocks of 4096: at grid point t a row-blocked window holds rows
  4096·t … 4096·t + 4095 of its array, every column; the other windows hold their whole (small) array at every point.
  Conversely an output whose point t writes back rows 4096·t … ends, after the 32 points, as the one matrix of which
  each written block is the row block. The two accumulators' block never moves, so the array ends at what the last
  point leaves.
-/
import proofs.«113356_j38199439131313_1_alg».proof.Proof.KBase
import proofs.«113356_j38199439131313_1_alg».proof.Proof.LibRowBlock

noncomputable section

namespace Cert.Hand.Blocks

open Cert.KernelIdeal Cert.KernelIdeal.Gen Cert.Hand.KBase Cert.RowBlock
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where a block sits

A block's element `y` sits in the array, on each axis, at the block index times the block's size plus `y`'s own
coordinate. A row-blocked window's index at point `t` is `(t, 0)`; a whole-array window's is `(0, 0)` at every point. -/

/-- A block whose index is `(0, 0)` and whose sizes are its array's, read at `y`, is the array at `y`: the array's
    contents `V` are known by the equation `e`. -/
local macro "read_whole_block " w:term:max ", " hi:term:max ", " V:term:max ", " e:term:max : tactic =>
  `(tactic| (
    funext y
    rw [View.read_apply]
    refine Eq.trans (congrArg $V (funext fun a => Fin.ext ?_)) (congrFun $e y)
    match a with
    | ⟨0, _⟩ => exact Pipeline.Window.rect_emb_val_of_index_zero $w _ 0 ($hi).1 y
    | ⟨1, _⟩ => exact Pipeline.Window.rect_emb_val_of_index_zero $w _ 1 ($hi).2 y))

/-! ## Region 0's windows -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)

theorem iblk0_x (c : Dev nD) (t : Fin cfg0.N) : IsRows 4096 t.val (xA m c) (iblk0 (V1 m ρ) c 0 t : Vec Ideal S4096x128 .f32) := by
  intro p j r hr
  have hi := idx0_0 t
  unfold iblk0
  rw [View.read_apply]
  refine (congrFun (V1_x m ρ c) _).trans (congrArg (xA m c) (funext fun a => Fin.ext ?_))
  match a with
  | ⟨0, _⟩ => show win0_0.index t 0 * 4096 + 1 * p.val = r.val; rw [hi.1, hr]; omega
  | ⟨1, _⟩ => show win0_0.index t 1 * 128 + 1 * j.val = j.val; rw [hi.2]; omega
theorem iblk0_h (c : Dev nD) (t : Fin cfg0.N) : IsRows 4096 t.val (hA m c) (iblk0 (V1 m ρ) c 1 t : Vec Ideal S4096x128 .f32) := by
  intro p j r hr
  have hi := idx0_1 t
  unfold iblk0
  rw [View.read_apply]
  refine (congrFun (V1_h m ρ c) _).trans (congrArg (hA m c) (funext fun a => Fin.ext ?_))
  match a with
  | ⟨0, _⟩ => show win0_1.index t 0 * 4096 + 1 * p.val = r.val; rw [hi.1, hr]; omega
  | ⟨1, _⟩ => show win0_1.index t 1 * 128 + 1 * j.val = j.val; rw [hi.2]; omega
theorem iblk0_w0x (c : Dev nD) (t : Fin cfg0.N) : (iblk0 (V1 m ρ) c 2 t : Vec Ideal S128x128 .f32)
    = extractStridedSlice S128x128 ![0, 0] (w0A m c) slices_S256x128_S128x128_0_0 := by
  unfold iblk0
  read_whole_block win0_2, (idx0_2 t), (V1 m ρ c main_v0 : FVec Ideal S128x128 .f32), (V1_w0x m ρ c)
theorem iblk0_w0h (c : Dev nD) (t : Fin cfg0.N) : (iblk0 (V1 m ρ) c 3 t : Vec Ideal S128x128 .f32)
    = extractStridedSlice S128x128 ![128, 0] (w0A m c) slices_S256x128_S128x128_128_0 := by
  unfold iblk0
  read_whole_block win0_3, (idx0_3 t), (V1 m ρ c main_v1 : FVec Ideal S128x128 .f32), (V1_w0h m ρ c)
theorem iblk0_w1 (c : Dev nD) (t : Fin cfg0.N) : (iblk0 (V1 m ρ) c 4 t : Vec Ideal S128x128 .f32) = w1A m c := by
  unfold iblk0
  read_whole_block win0_4, (idx0_4 t), (V1 m ρ c main_arg4 : FVec Ideal S128x128 .f32), (V1_w1 m ρ c)

/-! ## Region 0's results from what each point leaves -/

/-- The z window's block index at point `t` is `(t, 0)`. -/
theorem idx0_5 : ∀ t : Fin cfg0.N, win0_5.index t 0 = t.val ∧ win0_5.index t 1 = 0 :=
  (by decide +kernel : ∀ t : Fin grid0.N, win0_5.index t 0 = t.val ∧ win0_5.index t 1 = 0)

/-- z: if every point's block is the row block of one matrix G, the array ends at G. -/
theorem zK_of_rows (c : Dev nD) (G : FVec Ideal S131072x128 .f32)
    (hG : ∀ t : Fin cfg0.N, IsRows 4096 t.val G ((outsAt0 (V1 m ρ) c t.val t.isLt).1)) : zK m ρ c = G := by
  have hN : cfg0.N = 32 := N_0
  refine (W2_arr m ρ c 5).trans ((dat0 (V1 m ρ) c).arrAt_eq_of_cover 5 G (fun t _ => ?_) fun i => ?_)
  · -- what point t writes back is the body's block, uncut; by hypothesis that is rows 4096·t … of G
    have hi := idx0_5 t
    have ht := t.isLt
    show (cfg0.win 5).cut (grid0.coords t) ((dat0 (V1 m ρ) c).after 5 t) = _
    rw [after0_5]
    funext (y : S4096x128.Idx)
    rw [View.read_apply]
    obtain ⟨p, j, rfl⟩ : ∃ (p : Fin 4096) (j : Fin 128), y = ix2 p j := ⟨y 0, y 1, eq_ix2 y⟩
    refine (hG t p j ⟨4096 * t.val + p.val, by have := p.isLt; omega⟩ rfl).trans (congrArg G (funext fun a => Fin.ext ?_))
    match a with
    | ⟨0, _⟩ => show 4096 * t.val + p.val = win0_5.index t 0 * 4096 + 1 * p.val; rw [hi.1]; omega
    | ⟨1, _⟩ => show j.val = win0_5.index t 1 * 128 + 1 * j.val; rw [hi.2]; omega
  · -- row r lies in block r / 4096
    have h0 : (i 0).val < 131072 := (i 0).isLt
    have h1 : (i 1).val < 128 := (i 1).isLt
    obtain ⟨t, htv⟩ : ∃ t : Fin cfg0.N, t.val = (i 0).val / 4096 := ⟨⟨(i 0).val / 4096, by omega⟩, rfl⟩
    have hi := idx0_5 t
    refine ⟨t, flush0_5 t, ?_⟩
    show i ∈ ((View.whole main_v2_0).slice (win0_5.rect t)).set
    rw [View.set_slice_whole, Rect.mem_set_unit]
    intro a
    match a with
    | ⟨0, _⟩ =>
      show win0_5.index t 0 * 4096 ≤ (i 0).val ∧ (i 0).val < win0_5.index t 0 * 4096 + 4096
      rw [hi.1, htv]; omega
    | ⟨1, _⟩ =>
      show win0_5.index t 1 * 128 ≤ (i 1).val ∧ (i 1).val < win0_5.index t 1 * 128 + 128
      rw [hi.2]; omega

theorem lt31 : 31 < cfg0.N := by rw [show cfg0.N = 32 from N_0]; decide

/-! ## The two accumulators

Windows 6 and 7 of region 0 hold the two one-row accumulators. Their block index is (0, 0) at every point and their
block is the whole [1, 128] array; the block is written back at one point only, the last. So the array ends at what
the body leaves at the last point: that one write-back covers every index, and through a block at offset zero of the
array's own sizes a read of some contents is those contents. -/

/-- The last grid point. -/
abbrev lastPt : Fin cfg0.N := ⟨31, lt31⟩

/-- A point at which window 6 is written back is the last one: among 32 points only 31 leaves the remainder 31. -/
theorem last_of_flush0_6 (t : Fin cfg0.N) (hf : (cfg0.win 6).flush t = true) : t = lastPt := by
  have hN : cfg0.N = 32 := N_0
  have h := (flush0_6 t).mp hf
  have := t.isLt
  exact Fin.ext (by show t.val = 31; omega)
theorem last_of_flush0_7 (t : Fin cfg0.N) (hf : (cfg0.win 7).flush t = true) : t = lastPt := by
  have hN : cfg0.N = 32 := N_0
  have h := (flush0_7 t).mp hf
  have := t.isLt
  exact Fin.ext (by show t.val = 31; omega)

/-- At the last point the block of either accumulator starts at offset zero on both axes … -/
theorem off0_6 : ∀ a, win0_6.index lastPt a * win0_6.size a = 0 := by decide +kernel
theorem off0_7 : ∀ a, win0_7.index lastPt a * win0_7.size a = 0 := by decide +kernel
/-- … and has the array's own sizes: nothing is cut. -/
theorem xsize0_6 : ∀ a, win0_6.xsize (grid0.coords lastPt) a = main_v2_1.ty.shape.size a := by decide +kernel
theorem xsize0_7 : ∀ a, win0_7.xsize (grid0.coords lastPt) a = main_v2_2.ty.shape.size a := by decide +kernel

/-- Through the last point's block — offset zero, the array's own sizes — a read of ANY contents of the array is
    those contents, and nothing of them is cut. Stated over arbitrary contents: the fact is about the block alone. -/
theorem read_last0_6 (X : main_v2_1.ty.Contents (Elt Ideal)) :
    (cfg0.win 6).cut (grid0.coords lastPt) X = ((cfg0.win 6).blk lastPt).view.read (Elt Ideal) X := by
  have hz : (fun a => win0_6.index lastPt a * main_v2_1.ty.shape.size a) = fun _ => 0 := funext off0_6
  refine (Memref.read_access_unit_zero (Elt Ideal) main_v2_1 hz (fun a => ?_) X).symm
  have h : win0_6.index lastPt a * main_v2_1.ty.shape.size a = 0 := off0_6 a
  show win0_6.index lastPt a * main_v2_1.ty.shape.size a + main_v2_1.ty.shape.size a ≤ main_v2_1.ty.shape.size a
  omega
theorem read_last0_7 (X : main_v2_2.ty.Contents (Elt Ideal)) :
    (cfg0.win 7).cut (grid0.coords lastPt) X = ((cfg0.win 7).blk lastPt).view.read (Elt Ideal) X := by
  have hz : (fun a => win0_7.index lastPt a * main_v2_2.ty.shape.size a) = fun _ => 0 := funext off0_7
  refine (Memref.read_access_unit_zero (Elt Ideal) main_v2_2 hz (fun a => ?_) X).symm
  have h : win0_7.index lastPt a * main_v2_2.ty.shape.size a = 0 := off0_7 a
  show win0_7.index lastPt a * main_v2_2.ty.shape.size a + main_v2_2.ty.shape.size a ≤ main_v2_2.ty.shape.size a
  omega

/-- What a point leaves depends on the point's position alone, not on the evidence that the position is in the grid:
    stated at a variable position, so that the two spellings of the last point are bridged by an equation. -/
theorem outsAt0_pos (V : (c : Dev nD) → (b : Ref sig .tc) → Buf (Elt Ideal) ((c : Thread nD τ).loc b)) (c : Dev nD)
    (n n' : ℕ) (e : n = n') (h : n < cfg0.N) (h' : n' < cfg0.N) : outsAt0 V c n h = outsAt0 V c n' h' := by
  subst e; rfl

/-- What the body leaves in the two accumulators' buffers at the last point. -/
theorem after_last0_6 (c : Dev nD) : (dat0 (V1 m ρ) c).after 6 lastPt = (outsAt0 (V1 m ρ) c 31 lt31).2.1 :=
  (after0_6 (V1 m ρ) c lastPt).trans
    (congrArg (fun p => p.2.1) (outsAt0_pos (V1 m ρ) c lastPt.val 31 rfl lastPt.isLt lt31))
theorem after_last0_7 (c : Dev nD) : (dat0 (V1 m ρ) c).after 7 lastPt = (outsAt0 (V1 m ρ) c 31 lt31).2.2 :=
  (after0_7 (V1 m ρ) c lastPt).trans
    (congrArg (fun p => p.2.2) (outsAt0_pos (V1 m ρ) c lastPt.val 31 rfl lastPt.isLt lt31))

/-- The one write-back of the column sums writes what the last point leaves, as that block of it. -/
theorem flushed0_6 (c : Dev nD) (t : Fin cfg0.N) (hf : (cfg0.win 6).flush t = true) :
    (dat0 (V1 m ρ) c).flushed 6 t = ((cfg0.win 6).blk t).view.read (Elt Ideal) (outsAt0 (V1 m ρ) c 31 lt31).2.1 := by
  obtain rfl : t = lastPt := last_of_flush0_6 t hf
  show (cfg0.win 6).cut (grid0.coords lastPt) ((dat0 (V1 m ρ) c).after 6 lastPt) = _
  rw [after_last0_6]
  exact read_last0_6 _
/-- The one write-back of the column sums of squares, likewise. -/
theorem flushed0_7 (c : Dev nD) (t : Fin cfg0.N) (hf : (cfg0.win 7).flush t = true) :
    (dat0 (V1 m ρ) c).flushed 7 t = ((cfg0.win 7).blk t).view.read (Elt Ideal) (outsAt0 (V1 m ρ) c 31 lt31).2.2 := by
  obtain rfl : t = lastPt := last_of_flush0_7 t hf
  show (cfg0.win 7).cut (grid0.coords lastPt) ((dat0 (V1 m ρ) c).after 7 lastPt) = _
  rw [after_last0_7]
  exact read_last0_7 _

/-- The last point's block covers the whole array: on each axis it runs from 0 over the array's full extent. -/
theorem cover0_6 (c : Dev nD) (i : ((cfg0.win 6).arr.view.loc (c.tc : Thread nD τ)).2.ty.Idx) :
    i ∈ ((cfg0.win 6).blk lastPt).view.set := by
  show i ∈ ((View.whole main_v2_1).slice (win0_6.rect lastPt)).set
  rw [View.set_slice_whole, Rect.mem_set_unit]
  intro a
  have hlt : (i a : Nat) < main_v2_1.ty.shape.size a := (i a).isLt
  have h0 : win0_6.index lastPt a * win0_6.size a = 0 := off0_6 a
  have h1 : win0_6.xsize (grid0.coords lastPt) a = main_v2_1.ty.shape.size a := xsize0_6 a
  omega
theorem cover0_7 (c : Dev nD) (i : ((cfg0.win 7).arr.view.loc (c.tc : Thread nD τ)).2.ty.Idx) :
    i ∈ ((cfg0.win 7).blk lastPt).view.set := by
  show i ∈ ((View.whole main_v2_2).slice (win0_7.rect lastPt)).set
  rw [View.set_slice_whole, Rect.mem_set_unit]
  intro a
  have hlt : (i a : Nat) < main_v2_2.ty.shape.size a := (i a).isLt
  have h0 : win0_7.index lastPt a * win0_7.size a = 0 := off0_7 a
  have h1 : win0_7.xsize (grid0.coords lastPt) a = main_v2_2.ty.shape.size a := xsize0_7 a
  omega

/-- The two accumulators end at what the last point leaves. -/
theorem sumK_last (c : Dev nD) : sumK m ρ c = (outsAt0 (V1 m ρ) c 31 lt31).2.1 := by
  -- the array after region 0 is the entry contents with every write-back folded in; the one write-back covers it
  refine (W2_arr m ρ c 6).trans ?_
  exact (dat0 (V1 m ρ) c).arrAt_eq_of_cover 6 (outsAt0 (V1 m ρ) c 31 lt31).2.1 (flushed0_6 m ρ c)
    fun i => ⟨lastPt, (flush0_6 lastPt).mpr rfl, cover0_6 c i⟩
theorem sqK_last (c : Dev nD) : sqK m ρ c = (outsAt0 (V1 m ρ) c 31 lt31).2.2 := by
  refine (W2_arr m ρ c 7).trans ?_
  exact (dat0 (V1 m ρ) c).arrAt_eq_of_cover 7 (outsAt0 (V1 m ρ) c 31 lt31).2.2 (flushed0_7 m ρ c)
    fun i => ⟨lastPt, (flush0_7 lastPt).mpr rfl, cover0_7 c i⟩

/-! ## Region 1's windows -/

theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = 0 ∧ win1_6.index t 1 = 0 :=
  (by decide +kernel : ∀ t : Fin grid1.N, win1_6.index t 0 = 0 ∧ win1_6.index t 1 = 0)
theorem idx1_7 : ∀ t : Fin cfg1.N, win1_7.index t 0 = 0 ∧ win1_7.index t 1 = 0 :=
  (by decide +kernel : ∀ t : Fin grid1.N, win1_7.index t 0 = 0 ∧ win1_7.index t 1 = 0)
theorem idx1_8 : ∀ t : Fin cfg1.N, win1_8.index t 0 = 0 ∧ win1_8.index t 1 = 0 :=
  (by decide +kernel : ∀ t : Fin grid1.N, win1_8.index t 0 = 0 ∧ win1_8.index t 1 = 0)
theorem idx1_9 : ∀ t : Fin cfg1.N, win1_9.index t 0 = 0 ∧ win1_9.index t 1 = 0 :=
  (by decide +kernel : ∀ t : Fin grid1.N, win1_9.index t 0 = 0 ∧ win1_9.index t 1 = 0)
theorem idx1_10 : ∀ t : Fin cfg1.N, win1_10.index t 0 = 0 ∧ win1_10.index t 1 = 0 :=
  (by decide +kernel : ∀ t : Fin grid1.N, win1_10.index t 0 = 0 ∧ win1_10.index t 1 = 0)
theorem idx1_11 : ∀ t : Fin cfg1.N, win1_11.index t 0 = 0 ∧ win1_11.index t 1 = 0 :=
  (by decide +kernel : ∀ t : Fin grid1.N, win1_11.index t 0 = 0 ∧ win1_11.index t 1 = 0)
theorem idx1_12 : ∀ t : Fin cfg1.N, win1_12.index t 0 = 0 ∧ win1_12.index t 1 = 0 :=
  (by decide +kernel : ∀ t : Fin grid1.N, win1_12.index t 0 = 0 ∧ win1_12.index t 1 = 0)
theorem idx1_13 : ∀ t : Fin cfg1.N, win1_13.index t 0 = 0 ∧ win1_13.index t 1 = 0 :=
  (by decide +kernel : ∀ t : Fin grid1.N, win1_13.index t 0 = 0 ∧ win1_13.index t 1 = 0)

theorem iblk1_z (c : Dev nD) (t : Fin cfg1.N) : IsRows 4096 t.val (zK m ρ c) (iblk1 (V3 m ρ) c 0 t : Vec Ideal S4096x128 .f32) := by
  intro p j r hr
  have hi := idx1_0 t
  unfold iblk1
  rw [View.read_apply]
  refine (congrFun (V3_z m ρ c) _).trans (congrArg (zK m ρ c) (funext fun a => Fin.ext ?_))
  match a with
  | ⟨0, _⟩ => show win1_0.index t 0 * 4096 + 1 * p.val = r.val; rw [hi.1, hr]; omega
  | ⟨1, _⟩ => show win1_0.index t 1 * 128 + 1 * j.val = j.val; rw [hi.2]; omega
theorem iblk1_t (c : Dev nD) (t : Fin cfg1.N) : IsRows 4096 t.val (tA m c) (iblk1 (V3 m ρ) c 1 t : Vec Ideal S4096x1 .f32) := by
  intro p j r hr
  have hi := idx1_1 t
  unfold iblk1
  rw [View.read_apply]
  refine (congrFun (V3_t' m ρ c) _).trans (congrArg (tA m c) (funext fun a => Fin.ext ?_))
  match a with
  | ⟨0, _⟩ => show win1_1.index t 0 * 4096 + 1 * p.val = r.val; rw [hi.1, hr]; omega
  | ⟨1, _⟩ => show win1_1.index t 1 * 1 + 1 * j.val = j.val; rw [hi.2]; omega
theorem iblk1_mean (c : Dev nD) (t : Fin cfg1.N) : (iblk1 (V3 m ρ) c 2 t : Vec Ideal S1x128 .f32) = meanK m ρ c := by
  unfold iblk1
  read_whole_block win1_2, (idx1_2 t), (V3 m ρ c main_v4 : FVec Ideal S1x128 .f32), (V3_mean m ρ c)
theorem iblk1_inv (c : Dev nD) (t : Fin cfg1.N) : (iblk1 (V3 m ρ) c 3 t : Vec Ideal S1x128 .f32) = invK m ρ c := by
  unfold iblk1
  read_whole_block win1_3, (idx1_3 t), (V3 m ρ c main_v11 : FVec Ideal S1x128 .f32), (V3_inv m ρ c)
theorem iblk1_gamma (c : Dev nD) (t : Fin cfg1.N) : (iblk1 (V3 m ρ) c 4 t : Vec Ideal S1x128 .f32) = shapeCast S1x128 (gammaA m c) shapeCasts_S128_S1x128 := by
  unfold iblk1
  read_whole_block win1_4, (idx1_4 t), (V3 m ρ c main_v12 : FVec Ideal S1x128 .f32), (V3_gamma m ρ c)
theorem iblk1_beta (c : Dev nD) (t : Fin cfg1.N) : (iblk1 (V3 m ρ) c 5 t : Vec Ideal S1x128 .f32) = shapeCast S1x128 (betaA m c) shapeCasts_S128_S1x128 := by
  unfold iblk1
  read_whole_block win1_5, (idx1_5 t), (V3 m ρ c main_v13 : FVec Ideal S1x128 .f32), (V3_beta m ρ c)
theorem iblk1_wg (c : Dev nD) (t : Fin cfg1.N) : (iblk1 (V3 m ρ) c 6 t : Vec Ideal S128x128 .f32) = wgA m c := by
  unfold iblk1
  read_whole_block win1_6, (idx1_6 t), (V3 m ρ c main_arg7 : FVec Ideal S128x128 .f32), (V3_wg m ρ c)
theorem iblk1_bg (c : Dev nD) (t : Fin cfg1.N) : (iblk1 (V3 m ρ) c 7 t : Vec Ideal S1x128 .f32) = shapeCast S1x128 (bgA m c) shapeCasts_S128_S1x128 := by
  unfold iblk1
  read_whole_block win1_7, (idx1_7 t), (V3 m ρ c main_v14 : FVec Ideal S1x128 .f32), (V3_bg m ρ c)
theorem iblk1_wf (c : Dev nD) (t : Fin cfg1.N) : (iblk1 (V3 m ρ) c 8 t : Vec Ideal S128x128 .f32) = wfA m c := by
  unfold iblk1
  read_whole_block win1_8, (idx1_8 t), (V3 m ρ c main_arg9 : FVec Ideal S128x128 .f32), (V3_wf m ρ c)
theorem iblk1_bf (c : Dev nD) (t : Fin cfg1.N) : (iblk1 (V3 m ρ) c 9 t : Vec Ideal S1x128 .f32) = shapeCast S1x128 (bfA m c) shapeCasts_S128_S1x128 := by
  unfold iblk1
  read_whole_block win1_9, (idx1_9 t), (V3 m ρ c main_v15 : FVec Ideal S1x128 .f32), (V3_bf m ρ c)
theorem iblk1_wh (c : Dev nD) (t : Fin cfg1.N) : (iblk1 (V3 m ρ) c 10 t : Vec Ideal S128x128 .f32) = whA m c := by
  unfold iblk1
  read_whole_block win1_10, (idx1_10 t), (V3 m ρ c main_arg11 : FVec Ideal S128x128 .f32), (V3_wh m ρ c)
theorem iblk1_bh (c : Dev nD) (t : Fin cfg1.N) : (iblk1 (V3 m ρ) c 11 t : Vec Ideal S1x128 .f32) = shapeCast S1x128 (bhA m c) shapeCasts_S128_S1x128 := by
  unfold iblk1
  read_whole_block win1_11, (idx1_11 t), (V3 m ρ c main_v16 : FVec Ideal S1x128 .f32), (V3_bh m ρ c)
theorem iblk1_wt (c : Dev nD) (t : Fin cfg1.N) : (iblk1 (V3 m ρ) c 12 t : Vec Ideal S128x128 .f32) = wtA m c := by
  unfold iblk1
  read_whole_block win1_12, (idx1_12 t), (V3 m ρ c main_arg13 : FVec Ideal S128x128 .f32), (V3_wt m ρ c)
theorem iblk1_bt (c : Dev nD) (t : Fin cfg1.N) : (iblk1 (V3 m ρ) c 13 t : Vec Ideal S1x128 .f32) = shapeCast S1x128 (btA m c) shapeCasts_S128_S1x128 := by
  unfold iblk1
  read_whole_block win1_13, (idx1_13 t), (V3 m ρ c main_v17 : FVec Ideal S1x128 .f32), (V3_bt m ρ c)

/-! ## The program's result from what each point of region 1 writes back -/

/-- The result window's block index at point `t` is `(t, 0)`. -/
theorem idx1_14 : ∀ t : Fin cfg1.N, win1_14.index t 0 = t.val ∧ win1_14.index t 1 = 0 :=
  (by decide +kernel : ∀ t : Fin grid1.N, win1_14.index t 0 = t.val ∧ win1_14.index t 1 = 0)

/-- The final array at its literal type. -/
abbrev outK (c : Dev nD) : FVec Ideal S131072x128 .f32 := W4 m ρ c (Proc.devRef .tc main_v18)

theorem outK_of_rows (c : Dev nD) (G : FVec Ideal S131072x128 .f32)
    (hG : ∀ t : Fin cfg1.N, IsRows 4096 t.val G
      (out1_14 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) (iblk1 (V3 m ρ) c 13 t))) :
    outK m ρ c = G := by
  have hN : cfg1.N = 32 := N_1
  refine (W4_arr m ρ c 14).trans ((dat1 (V3 m ρ) c).arrAt_eq_of_cover 14 G (fun t _ => ?_) fun i => ?_)
  · -- what point t writes back is the body's block, uncut; by hypothesis that is rows 4096·t … of G
    have hi := idx1_14 t
    have ht := t.isLt
    show (cfg1.win 14).cut (grid1.coords t) ((dat1 (V3 m ρ) c).after 14 t) = _
    rw [after1_14]
    funext (y : S4096x128.Idx)
    rw [View.read_apply]
    obtain ⟨p, j, rfl⟩ : ∃ (p : Fin 4096) (j : Fin 128), y = ix2 p j := ⟨y 0, y 1, eq_ix2 y⟩
    refine (hG t p j ⟨4096 * t.val + p.val, by have := p.isLt; omega⟩ rfl).trans (congrArg G (funext fun a => Fin.ext ?_))
    match a with
    | ⟨0, _⟩ => show 4096 * t.val + p.val = win1_14.index t 0 * 4096 + 1 * p.val; rw [hi.1]; omega
    | ⟨1, _⟩ => show j.val = win1_14.index t 1 * 128 + 1 * j.val; rw [hi.2]; omega
  · -- row r lies in block r / 4096
    have h0 : (i 0).val < 131072 := (i 0).isLt
    have h1 : (i 1).val < 128 := (i 1).isLt
    obtain ⟨t, htv⟩ : ∃ t : Fin cfg1.N, t.val = (i 0).val / 4096 := ⟨⟨(i 0).val / 4096, by omega⟩, rfl⟩
    have hi := idx1_14 t
    refine ⟨t, flush1_14 t, ?_⟩
    show i ∈ ((View.whole main_v18).slice (win1_14.rect t)).set
    rw [View.set_slice_whole, Rect.mem_set_unit]
    intro a
    match a with
    | ⟨0, _⟩ =>
      show win1_14.index t 0 * 4096 ≤ (i 0).val ∧ (i 0).val < win1_14.index t 0 * 4096 + 4096
      rw [hi.1, htv]; omega
    | ⟨1, _⟩ =>
      show win1_14.index t 1 * 128 ≤ (i 1).val ∧ (i 1).val < win1_14.index t 1 * 128 + 128
      rw [hi.2]; omega

end Cert.Hand.Blocks

end
-- ==== Proof.LibRowMean.lean ====
/-
  Row blocks (`Cert.RowBlock.IsRows`) under two more operations at the exact instance, and the column layouts they read.

  THE QUOTIENT BY A COLUMN. A matrix divided, row by row, by a column `d` whose entries are never zero is the
  matrix multiplied, row by row, by the column of reciprocals `1/d`. On the extended reals the quotient by
  `y ≠ 0` is the product with `y⁻¹`, and `1/y` is `1·y⁻¹ = y⁻¹`; nothing is asked of `x` and `y` may be
  infinite (then `y⁻¹ = 0` on both sides). Row `r` of either side reads row `r` of the matrix and entry `r` of
  the column only, so row blocks go to row blocks.

  A PRODUCT WITH TWO MATRICES SIDE BY SIDE. `[X | Y]·W = X·W_top + Y·W_bot`: the sum over the `K + K` shared
  columns splits into the sum over the first `K` and the sum over the last `K`, a fact of any commutative
  monoid, so it holds at the infinities too. Row `r` of the product reads row `r` of `X` and of `Y` only.
-/
import proofs.«113356_j38199439131313_1_alg».proof.Proof.LibRowBlock

noncomputable section

namespace Cert.RowBlock

open Idealize.ShloMosaic Idealize.ShloMosaic.ValueIdx

/-! ## A column read at an index -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` laid as a column and then repeated over `b` columns reads, at `(r, j)`, the vector at `r`. -/
theorem broadcastInDim_col_apply {α : Type} {a b : ℕ} (v : (⟨1, ![a]⟩ : Shape).Idx → α)
    (h1 : (⟨1, ![a]⟩ : Shape).BroadcastsInDim ⟨2, ![a, 1]⟩ ![0]) (h2 : (⟨2, ![a, 1]⟩ : Shape).BroadcastsInDim ⟨2, ![a, b]⟩ ![0, 1])
    (r : Fin a) (j : Fin b) :
    broadcastInDim ⟨2, ![a, b]⟩ ![0, 1] h2 (broadcastInDim ⟨2, ![a, 1]⟩ ![0] h1 v) (ix2 r j) = v (ix1 r) := by
  refine (broadcastInDim_apply ![0, 1] h2 _ (ix2 r j) (ix2 r (0 : Fin 1)) fun ax => ?_).trans
    (broadcastInDim_apply ![0] h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

/-! ## The quotient by a column -/

/-- For a divisor that is not zero, multiplying by its reciprocal is dividing by it: both are the product with `y⁻¹`,
    at the infinities too. -/
theorem mul_one_div (x y : EReal) (hy : y ≠ 0) : x * Ideal.div 1 y = Ideal.div x y := by
  unfold Ideal.div
  rw [if_neg hy, if_neg hy, one_mul]

namespace IsRows

variable {N n B t : Nat}

/-- A matrix divided row by row by a never-zero column `d`, against its row block multiplied by the row block of the
    reciprocal column `1/d` (the reciprocals taken on the vector, then laid as a column). -/
theorem div_col {Msg : FVec Ideal ⟨2, ![N, n]⟩ .f32} {msg : FVec Ideal ⟨2, ![B, n]⟩ .f32} (H : IsRows B t Msg msg)
    (d one : FVec Ideal ⟨1, ![N]⟩ .f32) (hd : ∀ r, d r ≠ 0) (hone : ∀ r, one r = 1)
    (hc : (⟨1, ![N]⟩ : Shape).ShapeCasts ⟨2, ![N, 1]⟩) {inv : FVec Ideal ⟨2, ![B, 1]⟩ .f32}
    (Hinv : IsRows B t (shapeCast ⟨2, ![N, 1]⟩ (Host.divf one d) hc) inv)
    (h1 : (⟨1, ![N]⟩ : Shape).BroadcastsInDim ⟨2, ![N, 1]⟩ ![0]) (h2 : (⟨2, ![N, 1]⟩ : Shape).BroadcastsInDim ⟨2, ![N, n]⟩ ![0, 1])
    (hb : (⟨2, ![B, 1]⟩ : Shape).Broadcasts ⟨2, ![B, n]⟩) :
    IsRows B t (Host.divf Msg (broadcastInDim ⟨2, ![N, n]⟩ ![0, 1] h2 (broadcastInDim ⟨2, ![N, 1]⟩ ![0] h1 d)))
      (mulf msg (broadcastTo ⟨2, ![B, n]⟩ inv hb)) := by
  intro p j r hr
  show msg (ix2 p j) * broadcastTo ⟨2, ![B, n]⟩ inv hb (ix2 p j)
    = Ideal.div (Msg (ix2 r j)) (broadcastInDim ⟨2, ![N, n]⟩ ![0, 1] h2 (broadcastInDim ⟨2, ![N, 1]⟩ ![0] h1 d) (ix2 r j))
  rw [broadcastTo_a1_ab_apply, broadcastInDim_col_apply, H p j r hr, Hinv p 0 r hr, shapeCast_a_a1_apply]
  show Msg (ix2 r j) * Ideal.div (one (ix1 r)) (d (ix1 r)) = _
  rw [hone, mul_one_div _ _ (hd _)]

/-! ## A product with two matrices side by side -/

/-- Rows of `[X | Y]·W` against the row blocks' two products into zero, summed: `wt` is the first `K` rows of `W`
    and `wb` its last `K`. -/
theorem dot_concat2 {K K2 M : Nat} {φ₁ φ₂ φ₃ φ₄ : FTy} (hK : K2 = K + K)
    {X : FVec Ideal ⟨2, ![N, K]⟩ .f32} {x : FVec Ideal ⟨2, ![B, K]⟩ φ₁} (HX : IsRows B t X x)
    {Y : FVec Ideal ⟨2, ![N, K]⟩ .f32} {y : FVec Ideal ⟨2, ![B, K]⟩ φ₂} (HY : IsRows B t Y y)
    (hc : Shape.Concatenates [(⟨2, ![N, K]⟩ : Shape), ⟨2, ![N, K]⟩] ⟨2, ![N, K2]⟩ 1)
    (D : DotDims ⟨2, ![N, K2]⟩ ⟨2, ![K2, M]⟩ ⟨2, ![N, M]⟩) (d : DotDims ⟨2, ![B, K]⟩ ⟨2, ![K, M]⟩ ⟨2, ![B, M]⟩)
    (hD : Plain D 1 0 0 1) (hd : Plain d 1 0 0 1)
    (W : FVec Ideal ⟨2, ![K2, M]⟩ .f32) (wt : FVec Ideal ⟨2, ![K, M]⟩ φ₃) (wb : FVec Ideal ⟨2, ![K, M]⟩ φ₄)
    (ht : ∀ (k : Fin K) (k' : Fin K2) (j : Fin M), k'.val = k.val → wt (ix2 k j) = W (ix2 k' j))
    (hb : ∀ (k : Fin K) (k' : Fin K2) (j : Fin M), k'.val = K + k.val → wb (ix2 k j) = W (ix2 k' j)) :
    IsRows B t (Host.dotGeneral D none (concatenate ⟨2, ![N, K2]⟩ 1 [⟨⟨2, ![N, K]⟩, X⟩, ⟨⟨2, ![N, K]⟩, Y⟩] hc) W)
      (addf (matmul d none x wt (constant ⟨2, ![B, M]⟩ .f32 0x00000000#32))
        (matmul d none y wb (constant ⟨2, ![B, M]⟩ .f32 0x00000000#32))) := by
  subst hK
  intro p j r hr
  rw [addf_apply]
  simp only [Host.dotGeneral, matmul]
  rw [Ideal.matmul_constant_zero_apply, Ideal.matmul_constant_zero_apply, Ideal.dotGeneral_apply,
    dot_plain_sum d hd, dot_plain_sum d hd, dot_plain_sum D hD, Fin.sum_univ_add]
  refine congrArg₂ (· + ·) (Finset.sum_congr rfl fun k _ => ?_) (Finset.sum_congr rfl fun k _ => ?_)
  · rw [HX p k r hr, ht k (Fin.castAdd K k) j rfl,
      concat_cols_apply [⟨⟨2, ![N, K]⟩, X⟩, ⟨⟨2, ![N, K]⟩, Y⟩] hc 0 (by simp) X rfl 0 rfl r (Fin.castAdd K k) k (Nat.zero_add _)]
  · rw [HY p k r hr, hb k (Fin.natAdd K k) j rfl,
      concat_cols_apply [⟨⟨2, ![N, K]⟩, X⟩, ⟨⟨2, ![N, K]⟩, Y⟩] hc 1 (by simp) Y rfl K rfl r (Fin.natAdd K k) k rfl]

end IsRows

end Cert.RowBlock

end
-- ==== Proof.LibRowSelect.lean ====
/-
  Row blocks under a comparison with a constant and a select, at the exact instance.

  If `a` is the `t`-th row block of `A` (rows `B·t, …, B·t + B − 1`), then so is every entrywise
  function of it: an entry's comparison against a constant, a select between two entrywise results, and in
  particular the leaky rectifier `x ↦ x` where `x ≥ z`, `c·x` elsewhere. Together with the product
  lemma (row `r` of `L·R` needs row `r` of `L` only) this reads a kernel that computes
  `leaky(L_block · R)` block by block against the host's `leaky(L · R)`.
-/
import proofs.«113356_j38199439131313_1_alg».proof.Proof.LibRowBlock

noncomputable section

namespace Cert.RowBlock

open Idealize.ShloMosaic Idealize.ShloMosaic.ValueIdx

namespace IsRows

variable {N n B t : Nat}

/-- An entrywise comparison of row blocks is the row block of the comparison. -/
theorem cmp {φ : FTy} {A A' : FVec Ideal ⟨2, ![N, n]⟩ φ} {a a' : FVec Ideal ⟨2, ![B, n]⟩ φ}
    (H : IsRows B t A a) (H' : IsRows B t A' a') (p : CmpFPredicate) : IsRows B t (cmpf p A A') (cmpf p a a') := by
  intro q j r hr
  rw [cmpf_apply, cmpf_apply, H q j r hr, H' q j r hr]

/-- An entrywise select between row blocks, on a row block of conditions, is the row block of the select. -/
theorem sel {α : Type} {C : IVec ⟨2, ![N, n]⟩ 1} {c : IVec ⟨2, ![B, n]⟩ 1}
    {X Y : (⟨2, ![N, n]⟩ : Shape).Idx → α} {x y : (⟨2, ![B, n]⟩ : Shape).Idx → α}
    (HC : IsRows B t C c) (HX : IsRows B t X x) (HY : IsRows B t Y y) : IsRows B t (select C X Y) (select c x y) := by
  intro q j r hr
  rw [select_apply, select_apply, HC q j r hr, HX q j r hr, HY q j r hr]

/-- A scalar constant the host converts to its own type and then broadcasts: still the constant in every entry. -/
theorem splat_id (φ : FTy) (w : BitVec φ.bits) (h : (⟨0, ![]⟩ : Shape).BroadcastsInDim ⟨2, ![N, n]⟩ ![]) :
    IsRows B t (broadcastInDim ⟨2, ![N, n]⟩ ![] h (id (constant (F := Ideal) ⟨0, ![]⟩ φ w)))
      (broadcast ⟨2, ![B, n]⟩ (Scalar.ofBits (F := Ideal) φ w)) :=
  fun _ _ _ _ => rfl

/-- THE LEAKY RECTIFIER OF A PRODUCT, block against whole: with `O = L·R` on the host and `o = l·r` into a zero
    accumulator on a row block `l` of `L` (`r` and `R` the same matrix), `select (o ≥ z) o (c·o)` is the row block
    of `select (O ≥ z) O (c·O)`, `z` and `c` the same words on both sides. -/
theorem leaky_dot {K M : Nat} {L : FVec Ideal ⟨2, ![N, K]⟩ .f32} {l : FVec Ideal ⟨2, ![B, K]⟩ .f32} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R r : FVec Ideal ⟨2, ![K, M]⟩ .f32) (hR : ∀ k j, r (ix2 k j) = R (ix2 k j))
    (hb : (⟨0, ![]⟩ : Shape).BroadcastsInDim ⟨2, ![N, M]⟩ ![]) (z c : BitVec 32) :
    IsRows B t
      (select (cmpf .oge (Host.dotGeneral D none L R) (broadcastInDim ⟨2, ![N, M]⟩ ![] hb (constant (F := Ideal) ⟨0, ![]⟩ .f32 z)))
        (Host.dotGeneral D none L R)
        (mulf (broadcastInDim ⟨2, ![N, M]⟩ ![] hb (id (constant (F := Ideal) ⟨0, ![]⟩ .f32 c))) (Host.dotGeneral D none L R)))
      (select (cmpf .oge (matmul d none l r (constant ⟨2, ![B, M]⟩ .f32 0x00000000#32)) (broadcast ⟨2, ![B, M]⟩ (Scalar.ofBits (F := Ideal) .f32 z)))
        (matmul d none l r (constant ⟨2, ![B, M]⟩ .f32 0x00000000#32))
        (mulf (broadcast ⟨2, ![B, M]⟩ (Scalar.ofBits (F := Ideal) .f32 c)) (matmul d none l r (constant ⟨2, ![B, M]⟩ .f32 0x00000000#32)))) :=
  have HO := dot H D d hD hd R r hR
  sel (cmp HO (splat .f32 z hb) .oge) HO (mul (splat_id .f32 c hb) HO)

end IsRows

/-- A matrix is its own (only) row block of full height: the hypothesis a whole-matrix operand meets. -/
theorem isRows_self {α : Type} {N n : Nat} (A : (⟨2, ![N, n]⟩ : Shape).Idx → α) : IsRows N 0 A A := by
  intro p j r hr
  have e : r = p := Fin.ext (by omega)
  rw [e]

end Cert.RowBlock

end
-- ==== Proof.LibRowBcast.lean ====
/-
  Three more facts about row blocks (rows B·t … B·t + B − 1 of a matrix), and the column sums of a block.

  A ROW KEPT AS A ONE-ROW MATRIX. The whole-matrix side lays a vector of n entries as one row and repeats it over all N
  rows; the block side holds the same n entries as a [1, n] matrix and repeats that over its B rows. Entry (p, j) of
  either is entry j of the vector.

  A COLUMN REPEATED OVER THE COLUMNS. An [N, 1] column broadcast to [N, n] has, in row r, the column's entry r in every
  place; so the broadcast of rows B·t … of the column is rows B·t … of the broadcast.

  COLUMN SUMS. An add-reduction of a [B, n] block along its rows, from the zero word, has at column d the sum over the
  rows p of entry (p, d).
-/
import proofs.«113356_j38199439131313_1_alg».proof.Proof.LibRowMean
import proofs.«113356_j38199439131313_1_alg».proof.Proof.LibRowSelect

noncomputable section

namespace Cert.RowBlock

open Idealize.ShloMosaic Idealize.ShloMosaic.ValueIdx

namespace IsRows

variable {N n B t : Nat}

/-- A vector laid as a row and repeated over all rows, against the same entries held as a one-row matrix and
    repeated over the block's rows. -/
theorem row_bcast {α : Type} (b : (⟨1, ![n]⟩ : Shape).Idx → α) (v : (⟨2, ![1, n]⟩ : Shape).Idx → α)
    (hv : ∀ j : Fin n, v (ix2 (0 : Fin 1) j) = b (ix1 j))
    (h1 : (⟨1, ![n]⟩ : Shape).BroadcastsInDim ⟨2, ![1, n]⟩ ![1])
    (h2 : (⟨2, ![1, n]⟩ : Shape).BroadcastsInDim ⟨2, ![N, n]⟩ ![0, 1])
    (hc : (⟨2, ![1, n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ v hc) hb) := by
  intro p j r _
  -- the block side: row p of the repeated one-row matrix is its only row, entry j of the vector
  rw [broadcastTo_1b_ab_apply, shapeCast_self, hv]
  -- the whole-matrix side: row r of the repeated row is the row, which at j is the vector at j
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-- A column repeated over n columns: rows of the broadcast are the broadcast of the rows. -/
theorem col_bcast {α : Type} {T : (⟨2, ![N, 1]⟩ : Shape).Idx → α} {tb : (⟨2, ![B, 1]⟩ : Shape).Idx → α}
    (H : IsRows B t T tb) (h : (⟨2, ![N, 1]⟩ : Shape).BroadcastsInDim ⟨2, ![N, n]⟩ ![0, 1])
    (hb : (⟨2, ![B, 1]⟩ : Shape).Broadcasts ⟨2, ![B, n]⟩) :
    IsRows B t (broadcastInDim ⟨2, ![N, n]⟩ ![0, 1] h T) (broadcastTo ⟨2, ![B, n]⟩ tb hb) := by
  intro p j r hr
  -- the block side reads the block column at row p, which is the column at row r
  rw [broadcastTo_a1_ab_apply, H p 0 r hr]
  -- the whole-matrix side reads the column at row r, whatever the column j
  refine Eq.symm (broadcastInDim_apply ![0, 1] h T (ix2 r j) (ix2 r (0 : Fin 1)) fun ax => ?_)
  match ax with
  | ⟨0, _⟩ =>
    show r.val = if N = 1 then 0 else r.val
    split
    · have := r.isLt; omega
    · rfl
  | ⟨1, _⟩ => rfl

/-- A matrix unchanged by a cast to its own shape. -/
theorem cast_self {α : Type} {A : (⟨2, ![N, n]⟩ : Shape).Idx → α} {a : (⟨2, ![B, n]⟩ : Shape).Idx → α}
    (H : IsRows B t A a) (hc : (⟨2, ![B, n]⟩ : Shape).ShapeCasts ⟨2, ![B, n]⟩) :
    IsRows B t A (shapeCast ⟨2, ![B, n]⟩ a hc) := by
  rw [shapeCast_self]; exact H

end IsRows

/-- The sum over the rows of a [B, n] block (an add-reduction along axis 0 from the zero word), at column d. -/
theorem colSum_apply {B n : Nat} (v : FVec Ideal ⟨2, ![B, n]⟩ .f32) (h : Shape.Reduces ⟨2, ![B, n]⟩ [0] ⟨1, ![n]⟩)
    (hφ : FKind.Formats .f32) (hacc : (0x00000000#32 : BitVec 32) = FKind.add.neutral .f32 hφ) (d : Fin n) :
    multiReduction .add [0] ⟨1, ![n]⟩ v 0x00000000#32 h hφ hacc (ix1 d) = ∑ r : Fin B, v (ix2 r d) := by
  -- a sum over one axis is the sum over that axis's coordinates of the source at the reduced index with the
  -- coordinate put back; here that index is (r, d)
  rw [Ideal.multiReduction_add_single v _ h hφ hacc (ix1 d)]
  refine Finset.sum_congr rfl fun r _ => congrArg v (funext fun ax => Fin.ext ?_)
  match ax with
  | ⟨0, _⟩ => rfl
  | ⟨1, _⟩ => rfl

end Cert.RowBlock

end
-- ==== Proof.LibStats.lean ====
/-
  Pure mathematics on the extended reals, used from both programs' sides.

  (1) "Is a real": an extended real that is neither infinity, and the operations of one layer
      that keep a value real: sum, difference, product, quotient by a nonzero real, maximum,
      the reciprocal square root of a positive real, and finite sums.
  (2) The batch statistics over a finite index type of N elements: for real entries the
      one-pass variance  max (Σx²/N − (Σx/N)², 0)  is the two-pass variance  Σ(x − mean)²/N,
      which is a nonnegative real; adding a positive real to it gives a positive real.
  (3) Re-indexing a sum over Fin (a·b) as a double sum over Fin a × Fin b, the pair (t, r)
      standing for the index b·t + r.
-/
import Idealize.ShloMosaic.PureOps.Ideal
import Idealize.ShloMosaic.PureOps.Ideal.Laws
import Mathlib.Data.EReal.Inv
import Mathlib.Data.Fintype.BigOperators
import Mathlib.Logic.Equiv.Fin.Basic

noncomputable section

namespace Cert.Hand.LibStats

open Idealize.ShloMosaic
open scoped BigOperators

/-! ## Real values among the extended reals -/

/-- An extended real that is a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | top => exact absurd rfl ht
    | coe r => exact ⟨r, rfl⟩
theorem IsReal.ne_bot {x : EReal} (hx : IsReal x) : x ≠ ⊥ := (isReal_iff.mp hx).1
theorem IsReal.ne_top {x : EReal} (hx : IsReal x) : x ≠ ⊤ := (isReal_iff.mp hx).2

theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.sub {x y : EReal} (hx : IsReal x) (hy : IsReal y) : IsReal (x - y) := by
  obtain ⟨a, rfl⟩ := hx; obtain ⟨b, rfl⟩ := hy
  exact ⟨a - b, (EReal.coe_sub a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.max_zero {x : EReal} (hx : IsReal x) : IsReal (Max.max x 0) := hx.max isReal_zero

/-- The quotient of two reals, the divisor not zero, is the real quotient. -/
theorem div_coe_coe (a c : ℝ) (hc : c ≠ 0) : Ideal.div (a : EReal) (c : EReal) = ((a / c : ℝ) : EReal) := by
  rw [Ideal.div_coe hc, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  have hb : b ≠ 0 := by rintro rfl; exact h0 EReal.coe_zero
  exact ⟨a / b, div_coe_coe a b hb⟩
theorem IsReal.div_coe {x : EReal} (hx : IsReal x) {c : ℝ} (hc : c ≠ 0) : IsReal (Ideal.div x (c : EReal)) := by
  obtain ⟨a, rfl⟩ := hx
  exact ⟨a / c, div_coe_coe a c hc⟩

/-- The reciprocal square root of a positive real r is the real (√r)⁻¹, which is positive. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']
theorem rsqrt_pos_real {r : ℝ} (hr : 0 < r) : ∃ s : ℝ, 0 < s ∧ Ideal.rsqrt (r : EReal) = (s : EReal) :=
  ⟨(Real.sqrt r)⁻¹, inv_pos.mpr (Real.sqrt_pos.mpr hr), rsqrt_coe_pos hr⟩
theorem IsReal.rsqrt_pos {x : EReal} (hx : IsReal x) (h : 0 < x) : IsReal (Ideal.rsqrt x) := by
  obtain ⟨r, rfl⟩ := hx
  exact ⟨_, rsqrt_coe_pos (EReal.coe_pos.mp h)⟩

/-- The coercion of a finite real sum is the sum of the coercions. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty]; rfl
  · intro a s ha ih
    rw [Finset.sum_insert ha, Finset.sum_insert ha, EReal.coe_add, ih]
theorem IsReal.sum {ι : Type*} (s : Finset ι) (f : ι → EReal) (h : ∀ i ∈ s, IsReal (f i)) : IsReal (∑ i ∈ s, f i) := by
  classical
  revert h
  refine Finset.induction_on s ?_ ?_
  · intro _; rw [Finset.sum_empty]; exact isReal_zero
  · intro a s ha ih h
    rw [Finset.sum_insert ha]
    exact (h a (Finset.mem_insert_self a s)).add (ih fun i hi => h i (Finset.mem_insert_of_mem hi))
theorem IsReal.sum_univ {ι : Type*} [Fintype ι] (f : ι → EReal) (h : ∀ i, IsReal (f i)) : IsReal (∑ i, f i) :=
  IsReal.sum _ f fun i _ => h i

/-! The same closure facts over the float operations read at the exact instance. -/

theorem IsReal.addf {φ : FTy} {x y : Ideal φ} (hx : IsReal x) (hy : IsReal y) : IsReal (FloatOps.addf x y) := hx.add hy
theorem IsReal.subf {φ : FTy} {x y : Ideal φ} (hx : IsReal x) (hy : IsReal y) : IsReal (FloatOps.subf x y) := hx.sub hy
theorem IsReal.mulf {φ : FTy} {x y : Ideal φ} (hx : IsReal x) (hy : IsReal y) : IsReal (FloatOps.mulf x y) := hx.mul hy
theorem IsReal.maximumf {φ : FTy} {x y : Ideal φ} (hx : IsReal x) (hy : IsReal y) : IsReal (FloatOps.maximumf x y) := hx.max hy
theorem IsReal.divf {φ : FTy} {x y : Ideal φ} (hx : IsReal x) (hy : IsReal y) (h0 : y ≠ 0) : IsReal (FloatOps.divf x y) := hx.div hy h0
theorem IsReal.hostDivf {φ : FTy} {x y : Ideal φ} (hx : IsReal x) (hy : IsReal y) (h0 : y ≠ 0) : IsReal (FloatOps.hostDivf x y) := hx.div hy h0
theorem IsReal.rsqrtf {φ : FTy} {x : Ideal φ} (hx : IsReal x) (h : (0 : EReal) < x) : IsReal (FloatOps.rsqrt x) := hx.rsqrt_pos h

/-! ## The batch statistics -/

section Stats

variable {ι : Type*} [Fintype ι]

/-- Over the reals: with N the number of indices, the mean of the squares less the square of the mean is
    the mean of the squared deviations. Expanding the square, the cross term is 2 · mean · Σx = 2 · N · mean²
    and the constant term sums to N · mean². -/
theorem real_batch_var (N : ℝ) (hN : (Fintype.card ι : ℝ) = N) (hN0 : N ≠ 0) (r : ι → ℝ) :
    (∑ i, r i * r i) / N - (∑ i, r i) / N * ((∑ i, r i) / N)
      = (∑ i, (r i - (∑ i, r i) / N) * (r i - (∑ i, r i) / N)) / N := by
  have h1 : ∀ m : ℝ, ∑ i, (r i - m) * (r i - m) = (∑ i, r i * r i) - 2 * m * (∑ i, r i) + N * (m * m) := by
    intro m
    have h2 : ∀ i, (r i - m) * (r i - m) = r i * r i - 2 * m * r i + m * m := fun i => by ring
    simp only [h2]
    rw [Finset.sum_add_distrib, Finset.sum_sub_distrib, ← Finset.mul_sum, Finset.sum_const, Finset.card_univ,
      nsmul_eq_mul, hN]
  rw [h1]
  field_simp
  ring

/-- The number of indices, not zero, is positive. -/
theorem card_pos_of_ne (N : ℝ) (hN : (Fintype.card ι : ℝ) = N) (hN0 : N ≠ 0) : 0 < N :=
  lt_of_le_of_ne (hN ▸ Nat.cast_nonneg _) hN0.symm

/-- Over the reals the mean of the squared deviations is not negative. -/
theorem real_var_nonneg (N : ℝ) (hN : (Fintype.card ι : ℝ) = N) (hN0 : N ≠ 0) (r : ι → ℝ) (m : ℝ) :
    0 ≤ (∑ i, (r i - m) * (r i - m)) / N :=
  div_nonneg (Finset.sum_nonneg fun i _ => mul_self_nonneg _) (card_pos_of_ne N hN hN0).le

/-- The mean of real entries, as the real quotient. -/
theorem mean_coe (Nr : ℝ) (hN0 : Nr ≠ 0) (r : ι → ℝ) :
    Ideal.div (∑ i, (r i : EReal)) (Nr : EReal) = (((∑ i, r i) / Nr : ℝ) : EReal) := by
  rw [← coe_sum, div_coe_coe _ _ hN0]

/-- The mean of the squared deviations of real entries, as a real. -/
theorem var2_coe (Nr : ℝ) (hN0 : Nr ≠ 0) (r : ι → ℝ) :
    Ideal.div (∑ i, ((r i : EReal) - Ideal.div (∑ i, (r i : EReal)) (Nr : EReal))
        * ((r i : EReal) - Ideal.div (∑ i, (r i : EReal)) (Nr : EReal))) (Nr : EReal)
      = (((∑ i, (r i - (∑ i, r i) / Nr) * (r i - (∑ i, r i) / Nr)) / Nr : ℝ) : EReal) := by
  rw [mean_coe Nr hN0 r]
  simp only [← EReal.coe_sub, ← EReal.coe_mul]
  rw [← coe_sum, div_coe_coe _ _ hN0]

/-- The mean of real entries is real. -/
theorem isReal_mean (Nr : ℝ) (hN0 : Nr ≠ 0) (x : ι → EReal) (hx : ∀ i, IsReal (x i)) :
    IsReal (Ideal.div (∑ i, x i) (Nr : EReal)) :=
  (IsReal.sum_univ x hx).div_coe hN0

/-- One pass against two: for real entries over an index type of Nr elements, the mean of the squares
    less the square of the mean, cut off below at zero, is the mean of the squared deviations. -/
theorem batch_var (Nr : ℝ) (hN : (Fintype.card ι : ℝ) = Nr) (hN0 : Nr ≠ 0) (x : ι → EReal) (hx : ∀ i, IsReal (x i)) :
    max (Ideal.div (∑ i, x i * x i) (Nr : EReal)
          - Ideal.div (∑ i, x i) (Nr : EReal) * Ideal.div (∑ i, x i) (Nr : EReal)) 0
      = Ideal.div (∑ i, (x i - Ideal.div (∑ i, x i) (Nr : EReal)) * (x i - Ideal.div (∑ i, x i) (Nr : EReal))) (Nr : EReal) := by
  choose r hr using hx
  simp only [hr]
  have hsq : Ideal.div (∑ i, (r i : EReal) * (r i : EReal)) (Nr : EReal) = (((∑ i, r i * r i) / Nr : ℝ) : EReal) := by
    simp only [← EReal.coe_mul]
    rw [← coe_sum, div_coe_coe _ _ hN0]
  rw [var2_coe Nr hN0 r, mean_coe Nr hN0 r, hsq, ← EReal.coe_mul, ← EReal.coe_sub, real_batch_var Nr hN hN0 r]
  exact max_eq_left (EReal.coe_nonneg.mpr (real_var_nonneg Nr hN hN0 r _))

/-- The mean of the squared deviations is a nonnegative real. -/
theorem batch_var_nonneg (Nr : ℝ) (hN : (Fintype.card ι : ℝ) = Nr) (hN0 : Nr ≠ 0) (x : ι → EReal) (hx : ∀ i, IsReal (x i)) :
    ∃ v : ℝ, 0 ≤ v ∧
      Ideal.div (∑ i, (x i - Ideal.div (∑ i, x i) (Nr : EReal)) * (x i - Ideal.div (∑ i, x i) (Nr : EReal))) (Nr : EReal) = (v : EReal) := by
  choose r hr using hx
  simp only [hr]
  exact ⟨_, real_var_nonneg Nr hN hN0 r _, var2_coe Nr hN0 r⟩

/-- … and with a positive real added it is a positive real. -/
theorem batch_var_add_pos (Nr : ℝ) (hN : (Fintype.card ι : ℝ) = Nr) (hN0 : Nr ≠ 0) (x : ι → EReal) (hx : ∀ i, IsReal (x i))
    (e : ℝ) (he : 0 < e) :
    ∃ v : ℝ, 0 < v ∧
      Ideal.div (∑ i, (x i - Ideal.div (∑ i, x i) (Nr : EReal)) * (x i - Ideal.div (∑ i, x i) (Nr : EReal))) (Nr : EReal) + (e : EReal)
        = (v : EReal) := by
  obtain ⟨v, hv, h⟩ := batch_var_nonneg Nr hN hN0 x hx
  exact ⟨v + e, add_pos_of_nonneg_of_pos hv he, by rw [h, EReal.coe_add]⟩

/-- … so its reciprocal square root is a positive real. -/
theorem batch_rsqrt_real (Nr : ℝ) (hN : (Fintype.card ι : ℝ) = Nr) (hN0 : Nr ≠ 0) (x : ι → EReal) (hx : ∀ i, IsReal (x i))
    (e : ℝ) (he : 0 < e) :
    ∃ s : ℝ, 0 < s ∧
      Ideal.rsqrt (Ideal.div (∑ i, (x i - Ideal.div (∑ i, x i) (Nr : EReal)) * (x i - Ideal.div (∑ i, x i) (Nr : EReal))) (Nr : EReal)
          + (e : EReal)) = (s : EReal) := by
  obtain ⟨v, hv, h⟩ := batch_var_add_pos Nr hN hN0 x hx e he
  rw [h]
  exact rsqrt_pos_real hv

end Stats

/-! ## Sums over Fin (a * b) as double sums -/

section Reindex

/-- The pair (t, r) stands for the index b * t + r of Fin n, n = a * b. -/
def finProdEquiv (a b n : ℕ) (h : a * b = n) : Fin a × Fin b ≃ Fin n := finProdFinEquiv.trans (finCongr h)

theorem finProdEquiv_val (a b n : ℕ) (h : a * b = n) (t : Fin a) (r : Fin b) :
    (finProdEquiv a b n h (t, r)).val = b * t.val + r.val := by
  show r.val + b * t.val = b * t.val + r.val
  exact Nat.add_comm _ _
theorem finProdEquiv_symm_fst_val (a b n : ℕ) (h : a * b = n) (k : Fin n) :
    ((finProdEquiv a b n h).symm k).1.val = k.val / b := rfl
theorem finProdEquiv_symm_snd_val (a b n : ℕ) (h : a * b = n) (k : Fin n) :
    ((finProdEquiv a b n h).symm k).2.val = k.val % b := rfl

variable {M : Type*} [AddCommMonoid M]

theorem sum_finProd (a b n : ℕ) (h : a * b = n) (f : Fin n → M) :
    ∑ p : Fin a × Fin b, f (finProdEquiv a b n h p) = ∑ k : Fin n, f k :=
  Equiv.sum_comp (finProdEquiv a b n h) f
theorem sum_sum_finProd (a b n : ℕ) (h : a * b = n) (f : Fin n → M) :
    ∑ t : Fin a, ∑ r : Fin b, f (finProdEquiv a b n h (t, r)) = ∑ k : Fin n, f k := by
  rw [← sum_finProd a b n h f, Fintype.sum_prod_type]
/-- The same for a sum restricted by a predicate. -/
theorem sum_filter_finProd (a b n : ℕ) (h : a * b = n) (P : Fin n → Prop) [DecidablePred P] (f : Fin n → M) :
    ∑ t : Fin a, ∑ r ∈ Finset.univ.filter (fun r : Fin b => P (finProdEquiv a b n h (t, r))), f (finProdEquiv a b n h (t, r))
      = ∑ k ∈ Finset.univ.filter P, f k := by
  rw [Finset.sum_filter, ← sum_sum_finProd a b n h fun k => if P k then f k else 0]
  exact Finset.sum_congr rfl fun t _ => Finset.sum_filter _ _

/-- Ten blocks of 5000 rows: the pair (t, r) is row 5000 * t + r of 50000. -/
abbrev rowsEquiv : Fin 10 × Fin 5000 ≃ Fin 50000 := finProdEquiv 10 5000 50000 (by norm_num)
/-- Eight chunks of 200000 edges: the pair (c, e) is edge 200000 * c + e of 1600000. -/
abbrev edgesEquiv : Fin 8 × Fin 200000 ≃ Fin 1600000 := finProdEquiv 8 200000 1600000 (by norm_num)

theorem rowsEquiv_val (t : Fin 10) (r : Fin 5000) : (rowsEquiv (t, r)).val = 5000 * t.val + r.val :=
  finProdEquiv_val 10 5000 50000 _ t r
theorem edgesEquiv_val (c : Fin 8) (e : Fin 200000) : (edgesEquiv (c, e)).val = 200000 * c.val + e.val :=
  finProdEquiv_val 8 200000 1600000 _ c e
theorem sum_rows (f : Fin 50000 → M) : ∑ t : Fin 10, ∑ r : Fin 5000, f (rowsEquiv (t, r)) = ∑ k : Fin 50000, f k :=
  sum_sum_finProd 10 5000 50000 _ f
theorem sum_edges (f : Fin 1600000 → M) : ∑ c : Fin 8, ∑ e : Fin 200000, f (edgesEquiv (c, e)) = ∑ k : Fin 1600000, f k :=
  sum_sum_finProd 8 200000 1600000 _ f

end Reindex

end Cert.Hand.LibStats

end
-- ==== Proof.LibAcc.lean ====
/-
  A running total kept across the ten grid points, and what it adds up to.

  The kernels keep a total in a scratch buffer: the first grid point clears it and adds its own
  block's contribution, every later point adds its block's contribution to what it finds. After the
  last point the total is the sum of the ten contributions. A block is 5000 consecutive rows of a
  50000-row array, point t owning rows 5000 t .. 5000 t + 4999, and a block's contribution is a sum
  over its rows; so the total after the last point is the sum over all 50000 rows. Commutativity and
  associativity of addition are all that is used, so this holds in any commutative monoid, the
  extended reals with their infinities included.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Hand.LibAcc

open Idealize.ShloMosaic Idealize.ShloMosaic.ValueIdx

/-! ## The recursion and its closed form -/

section Total
variable {M : Type*} [AddCommMonoid M]

/-- The total after point t: point 0 starts from zero, each later point adds to the total before. -/
def total (b : ℕ → M) : ℕ → M
  | 0 => 0 + b 0
  | t + 1 => total b t + b (t + 1)

theorem total_zero (b : ℕ → M) : total b 0 = 0 + b 0 := rfl
theorem total_succ (b : ℕ → M) (t : ℕ) : total b (t + 1) = total b t + b (t + 1) := rfl

/-- The total after point t is the sum of the contributions of points 0 .. t. -/
theorem total_eq_sum_range (b : ℕ → M) (t : ℕ) : total b t = ∑ s ∈ Finset.range (t + 1), b s := by
  induction t with
  | zero => rw [total_zero, zero_add, Finset.sum_range_one]
  | succ t ih => rw [total_succ, ih, Finset.sum_range_succ _ (t + 1)]

/-- After the tenth point: the sum over the ten points. -/
theorem total_nine (b : ℕ → M) : total b 9 = ∑ s : Fin 10, b s.val := by
  have e : total b 9 = ∑ s ∈ Finset.range 10, b s := total_eq_sum_range b 9
  rw [e, Finset.sum_range]

/-- Any sequence that obeys the recursion on the first N points has the closed form there. -/
theorem sum_of_rec {N : ℕ} (S b : ℕ → M) (h0 : S 0 = 0 + b 0) (hs : ∀ t, t + 1 < N → S (t + 1) = S t + b (t + 1))
    (t : ℕ) (ht : t < N) : S t = ∑ s ∈ Finset.range (t + 1), b s := by
  induction t with
  | zero => rw [h0, zero_add, Finset.sum_range_one]
  | succ t ih => rw [hs t ht, ih (by omega), Finset.sum_range_succ _ (t + 1)]

/-- A total of functions is the total of their values. -/
theorem total_apply {ι : Type*} (b : ℕ → ι → M) (t : ℕ) (d : ι) : total b t d = total (fun s => b s d) t := by
  induction t with
  | zero => rfl
  | succ t ih =>
    show total b t d + b (t + 1) d = total (fun s => b s d) t + b (t + 1) d
    rw [ih]

/-! ## Ten blocks of 5000 rows are the 50000 rows -/

/-- Row r of block t. -/
abbrev row (t : Fin 10) (r : Fin 5000) : Fin 50000 := ⟨5000 * t.val + r.val, by have := t.isLt; have := r.isLt; omega⟩

/-- (block, row in the block) ↦ row of the array, a bijection. -/
def rowsEquiv : Fin 10 × Fin 5000 ≃ Fin 50000 :=
  finProdFinEquiv.trans (finCongr (by norm_num : 10 * 5000 = 50000))

theorem rowsEquiv_val (t : Fin 10) (r : Fin 5000) : (rowsEquiv (t, r)).val = 5000 * t.val + r.val := by
  show r.val + 5000 * t.val = 5000 * t.val + r.val
  exact Nat.add_comm _ _

theorem rowsEquiv_apply (t : Fin 10) (r : Fin 5000) : rowsEquiv (t, r) = row t r :=
  Fin.ext (rowsEquiv_val t r)

/-- A sum over the rows is the sum over the blocks of the sums over each block's rows. -/
theorem sum_rows (x : Fin 50000 → M) : ∑ n : Fin 50000, x n = ∑ t : Fin 10, ∑ r : Fin 5000, x (row t r) := by
  rw [← Equiv.sum_comp rowsEquiv x, Fintype.sum_prod_type]
  exact Finset.sum_congr rfl fun t _ => Finset.sum_congr rfl fun r _ => congrArg x (rowsEquiv_apply t r)

/-- If point t contributes the sum over its block's rows, the total after the tenth point is the sum over all rows. -/
theorem total_rows (b : ℕ → M) (x : Fin 50000 → M) (hb : ∀ t : Fin 10, b t.val = ∑ r : Fin 5000, x (row t r)) :
    total b 9 = ∑ n : Fin 50000, x n := by
  rw [total_nine, sum_rows]
  exact Finset.sum_congr rfl fun t _ => hb t

/-- The same for a sequence given by the recursion on the ten points. -/
theorem rec_rows (S b : ℕ → M) (x : Fin 50000 → M) (h0 : S 0 = 0 + b 0)
    (hs : ∀ t, t + 1 < 10 → S (t + 1) = S t + b (t + 1)) (hb : ∀ t : Fin 10, b t.val = ∑ r : Fin 5000, x (row t r)) :
    S 9 = ∑ n : Fin 50000, x n := by
  have e : S 9 = ∑ s ∈ Finset.range 10, b s := sum_of_rec S b h0 hs 9 (by norm_num)
  rw [e, Finset.sum_range, sum_rows]
  exact Finset.sum_congr rfl fun t _ => hb t

/-- The two-index form: a total of rows of values, column by column. -/
theorem total_rows_apply {ι : Type*} (b : ℕ → ι → M) (x : Fin 50000 → ι → M)
    (hb : ∀ (t : Fin 10) (d : ι), b t.val d = ∑ r : Fin 5000, x (row t r) d) (d : ι) :
    total b 9 d = ∑ n : Fin 50000, x n d := by
  rw [total_apply]
  exact total_rows (fun s => b s d) (fun n => x n d) fun t => hb t d

end Total

/-- Over the extended reals, for an array of 50000 rows and 128 columns. -/
theorem total_rows_col (b : ℕ → Fin 128 → EReal) (x : Fin 50000 → Fin 128 → EReal)
    (hb : ∀ (t : Fin 10) (d : Fin 128), b t.val d = ∑ r : Fin 5000, x (row t r) d) (d : Fin 128) :
    total b 9 d = ∑ n : Fin 50000, x n d :=
  total_rows_apply b x hb d

/-! ## The two block contributions, as the vector operations compute them over the extended reals -/

/-- The sum over the rows of a 5000 x 128 block (an add-reduction along axis 0 from the zero word), at column d:
    the source index over column d with row r put back on the reduced axis is (r, d). -/
theorem colSum_apply (v : FVec Ideal ⟨2, ![5000, 128]⟩ .f32) (h : Shape.Reduces ⟨2, ![5000, 128]⟩ [0] ⟨1, ![128]⟩)
    (hφ : FKind.Formats .f32) (hacc : (0x00000000#32 : BitVec 32) = 0x00000000#32) (d : Fin 128) :
    multiReduction .add [0] ⟨1, ![128]⟩ v 0x00000000#32 h hφ hacc (ix1 d) = ∑ r : Fin 5000, v (ix2 r d) := by
  refine (Ideal.multiReduction_add_single v 0x00000000#32 h hφ hacc (ix1 d)).trans ?_
  refine Finset.sum_congr rfl fun r _ => congrArg v ?_
  funext a
  match a with
  | ⟨0, _⟩ => exact Fin.ext rfl
  | ⟨1, _⟩ => exact Fin.ext rfl

/-- The dimension numbers of a product that contracts the rows of both operands: contracting axes 0 and 0, free
    axes 1 and 1, no batch axes. -/
abbrev rowDims (w : DotDims.WF ⟨2, ![5000, 8]⟩ ⟨2, ![5000, 128]⟩ ⟨2, ![8, 128]⟩ [0] [0] [1] [1] [] []) :
    DotDims ⟨2, ![5000, 8]⟩ ⟨2, ![5000, 128]⟩ ⟨2, ![8, 128]⟩ := ⟨[0], [0], [1], [1], [], [], w⟩

/-- At those dimension numbers entry (g, d) of the product reads the left operand at (r, g) and the right operand
    at (r, d), r the contracted row; into a zero accumulator the entry is the sum of those products. -/
theorem rowContract_core {φ₁ φ₂ : FTy}
    (w : DotDims.WF ⟨2, ![5000, 8]⟩ ⟨2, ![5000, 128]⟩ ⟨2, ![8, 128]⟩ [0] [0] [1] [1] [] [])
    (prec : Option ContractPrecision) (oh : FVec Ideal ⟨2, ![5000, 8]⟩ φ₁) (v : FVec Ideal ⟨2, ![5000, 128]⟩ φ₂)
    (g : Fin 8) (d : Fin 128) :
    matmul (rowDims w) prec oh v (constant (F := Ideal) ⟨2, ![8, 128]⟩ .f32 0x00000000#32) (ix2 g d)
      = ∑ r : Fin 5000, oh (ix2 r g) * v (ix2 r d) := by
  show FloatOps.matmul (rowDims w) prec oh v (constant (F := Ideal) ⟨2, ![8, 128]⟩ .f32 0x00000000#32) (ix2 g d) = _
  rw [Ideal.matmul_constant_zero_apply, ← Equiv.sum_comp (contrEquiv1 (rowDims w) 5000 rfl rfl).symm]
  refine Finset.sum_congr rfl fun r _ => ?_
  have c := contrEquiv1_symm_val (rowDims w) 5000 rfl rfl r
  have l : (rowDims w).lhsIdx (ix2 g d) ((contrEquiv1 (rowDims w) 5000 rfl rfl).symm r) = ix2 r g := by
    funext ax; apply Fin.ext
    match ax with
    | ⟨0, _⟩ => simp [DotDims.lhsIdx]; exact c
    | ⟨1, _⟩ => simp [DotDims.lhsIdx]; rfl
  have rr : (rowDims w).rhsIdx (ix2 g d) ((contrEquiv1 (rowDims w) 5000 rfl rfl).symm r) = ix2 r d := by
    funext ax; apply Fin.ext
    match ax with
    | ⟨0, _⟩ => simp [DotDims.rhsIdx]; exact c
    | ⟨1, _⟩ => simp [DotDims.rhsIdx]; rfl
  rw [l, rr]

/-- A 5000 x 8 block against a 5000 x 128 block, both contracted along their rows into a zero accumulator: entry
    (g, d) of the 8 x 128 product is the sum over the rows r of (left at (r, g)) times (right at (r, d)). The
    dimension numbers are any record with contracting axes 0 and 0, free axes 1 and 1 and no batch axes. -/
theorem rowContract_apply {φ₁ φ₂ : FTy} (D : DotDims ⟨2, ![5000, 8]⟩ ⟨2, ![5000, 128]⟩ ⟨2, ![8, 128]⟩)
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision) (oh : FVec Ideal ⟨2, ![5000, 8]⟩ φ₁) (v : FVec Ideal ⟨2, ![5000, 128]⟩ φ₂)
    (g : Fin 8) (d : Fin 128) :
    matmul D prec oh v (constant ⟨2, ![8, 128]⟩ .f32 0x00000000#32) (ix2 g d)
      = ∑ r : Fin 5000, oh (ix2 r g) * v (ix2 r d) := by
  cases D with
  | mk lc rc ln rn lb rb wf =>
    dsimp only at hlc hrc hln hrn hlb hrb
    subst hlc hrc hln hrn hlb hrb
    exact rowContract_core wf prec oh v g d

end Cert.Hand.LibAcc

end
-- ==== Proof.Stats.lean ====
/-
  The batch statistics of a matrix of 131072 rows, as the two programs spell them.

  ROWS IN BLOCKS. Row r of 131072 is row p of block t with r = 4096·t + p, t < 32, p < 4096; a sum over all rows
  is the sum over the blocks of the sums over each block's rows.

  ONE PASS AGAINST TWO. For real entries x_r: the mean of the squares less the square of the mean,
  Σx²/N − (Σx/N)², is the mean of the squared deviations Σ(x − Σx/N)²/N. Over the reals this is the expansion of the
  square; on the extended reals it needs every entry to be a real number, which is where finiteness of the inputs is
  used.

  THE WORDS. 0x48000000 is the float 131072 and 0x00000000 the float 0.
-/
import proofs.«113356_j38199439131313_1_alg».proof.Proof.LibStats
import proofs.«113356_j38199439131313_1_alg».proof.Proof.LibAcc

noncomputable section

namespace Cert.Hand.Stats

open Idealize.ShloMosaic Cert.Hand.LibStats
open scoped BigOperators

/-- The word of the float 131072 denotes the real 131072. -/
theorem ofBits_N : Ideal.ofBits .f32 0x48000000#32 = ((131072 : ℝ) : EReal) := by
  -- sign 0, exponent field 144, fraction 0: the value is 2²³ · 2^(144 − 127 − 23) = 2¹⁷
  simp [Ideal.ofBits, Ideal.ieee, -EReal.coe_mul]; norm_num

/-- Row p of block t. -/
abbrev rowOf (t : Fin 32) (p : Fin 4096) : Fin 131072 := ⟨4096 * t.val + p.val, by have := t.isLt; have := p.isLt; omega⟩

/-- A sum over the 131072 rows is the sum over the 32 blocks of the sums over each block's 4096 rows. -/
theorem sum_rows {M : Type*} [AddCommMonoid M] (x : Fin 131072 → M) :
    ∑ r : Fin 131072, x r = ∑ t : Fin 32, ∑ p : Fin 4096, x (rowOf t p) := by
  -- the pair (t, p) ↦ 4096·t + p is a bijection of Fin 32 × Fin 4096 with Fin 131072
  rw [← sum_sum_finProd 32 4096 131072 (by norm_num) x]
  exact Finset.sum_congr rfl fun t _ => Finset.sum_congr rfl fun p _ =>
    congrArg x (Fin.ext (finProdEquiv_val 32 4096 131072 _ t p))

/-- A running total over the 32 grid points — the first point starts from zero, each later point adds its block's
    contribution — ends at the sum of the 32 contributions. -/
theorem total_32 {M : Type*} [AddCommMonoid M] (S b : ℕ → M) (h0 : S 0 = 0 + b 0)
    (hs : ∀ n, n + 1 < 32 → S (n + 1) = S n + b (n + 1)) : S 31 = ∑ t : Fin 32, b t.val := by
  -- by induction the total after point n is the sum of the contributions of points 0 … n
  have e : S 31 = ∑ s ∈ Finset.range 32, b s := Cert.Hand.LibAcc.sum_of_rec S b h0 hs 31 (by norm_num)
  rw [e, Finset.sum_range]

/-- One pass against two, over the 131072 rows, for real entries. -/
theorem var_onepass (x : Fin 131072 → EReal) (hx : ∀ r, IsReal (x r)) :
    Ideal.div (∑ r, x r * x r) ((131072 : ℝ) : EReal)
        - Ideal.div (∑ r, x r) ((131072 : ℝ) : EReal) * Ideal.div (∑ r, x r) ((131072 : ℝ) : EReal)
      = Ideal.div (∑ r, (x r - Ideal.div (∑ r, x r) ((131072 : ℝ) : EReal)) * (x r - Ideal.div (∑ r, x r) ((131072 : ℝ) : EReal)))
          ((131072 : ℝ) : EReal) := by
  -- name the real number each entry is; both sides are then coercions of real expressions, equal by the
  -- expansion of the square over the reals
  choose r hr using hx
  simp only [hr]
  have hN0 : (131072 : ℝ) ≠ 0 := by norm_num
  have hN : (Fintype.card (Fin 131072) : ℝ) = 131072 := by rw [Fintype.card_fin]; norm_num
  have hsq : Ideal.div (∑ i, (r i : EReal) * (r i : EReal)) ((131072 : ℝ) : EReal)
      = (((∑ i, r i * r i) / 131072 : ℝ) : EReal) := by
    simp only [← EReal.coe_mul]
    rw [← coe_sum, div_coe_coe _ _ hN0]
  rw [var2_coe 131072 hN0 r, mean_coe 131072 hN0 r, hsq, ← EReal.coe_mul, ← EReal.coe_sub,
    real_batch_var 131072 hN hN0 r]

end Cert.Hand.Stats

end
-- ==== Proof.Region0.lean ====
/-
  The z block region 0 leaves at each grid point, as a value.

  At point t the body holds block t of x and of h (rows 4096·t …), the two halves of W0 and W1. It computes
  z_t = ((x_t · W0_top + h_t · W0_bottom) · W1) and stores it as block t of z. A change of float format is the
  identity on extended reals, so z_t is rows 4096·t … of (([x | h] · W0) · W1): the product with the two matrices
  side by side splits into the two products.
-/
import proofs.«113356_j38199439131313_1_alg».proof.Proof.Blocks
import proofs.«113356_j38199439131313_1_alg».proof.Proof.LibRowBcast
import proofs.«113356_j38199439131313_1_alg».proof.Proof.Stats
import Idealize.ShloMosaic.Lib.Tactic

noncomputable section

namespace Cert.Hand.Region0

open Cert.KernelIdeal Cert.KernelIdeal.Gen Cert.Hand.KBase Cert.RowBlock Cert.Hand.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The whole matrix z as a host program spells it: ([x | h] · W0) · W1. -/
abbrev zHost (D1 : DotDims ⟨2, ![131072, 256]⟩ ⟨2, ![256, 128]⟩ ⟨2, ![131072, 128]⟩)
    (D2 : DotDims ⟨2, ![131072, 128]⟩ ⟨2, ![128, 128]⟩ ⟨2, ![131072, 128]⟩)
    (hc : Shape.Concatenates [(⟨2, ![131072, 128]⟩ : Shape), ⟨2, ![131072, 128]⟩] ⟨2, ![131072, 256]⟩ 1)
    (X H : FVec Ideal ⟨2, ![131072, 128]⟩ .f32) (W0 : FVec Ideal ⟨2, ![256, 128]⟩ .f32) (W1 : FVec Ideal ⟨2, ![128, 128]⟩ .f32) :
    FVec Ideal ⟨2, ![131072, 128]⟩ .f32 :=
  Host.dotGeneral D2 none (Host.dotGeneral D1 none (concatenate ⟨2, ![131072, 256]⟩ 1 [⟨⟨2, ![131072, 128]⟩, X⟩, ⟨⟨2, ![131072, 128]⟩, H⟩] hc) W0) W1

/-- The index origin of a matrix: both offsets zero. -/
private theorem hz : (![0, 0] : Fin 2 → Nat) = fun _ => 0 := funext fun a => by fin_cases a <;> rfl

/-- At a point that resets the accumulators, z's staging buffer receives one store covering it: the product of the five blocks loaded whole. -/
private theorem zpiece_A {F : FTy → Type} [FloatOps F] (c : Dev nD) (i : grid0.Coords)
    (a1 : Memref sig .tc .vmem S4096x128 .f32) (h1 : a1.IsWhole) (a2 : Memref sig .tc .vmem S4096x128 .f32) (h2 : a2.IsWhole)
    (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S4096x128 .f32) (h6 : a6.IsWhole)
    (a7 : Memref sig .tc .vmem S1x128 .f32) (h7 : a7.IsWhole) (a8 : Memref sig .tc .vmem S1x128 .f32) (h8 : a8.IsWhole)
    (hc : cond0_0 i) (x0 x1 : Vec F S4096x128 .f32) (x2 x3 x4 : Vec F S128x128 .f32) :
    out0_A_5 c i a1 h1 a2 h2 a3 h3 a4 h4 a5 h5 a6 h6 a7 h7 a8 h8 hc x0 x1 x2 x3 x4 = k0_pay2 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S4096x128) hz, View.ld_unit_zero (S := S128x128) hz]

/-- At a point that does not reset them the same one store: what the accumulators held plays no part in z's block. -/
private theorem zpiece_B {F : FTy → Type} [FloatOps F] (c : Dev nD) (i : grid0.Coords)
    (a1 : Memref sig .tc .vmem S4096x128 .f32) (h1 : a1.IsWhole) (a2 : Memref sig .tc .vmem S4096x128 .f32) (h2 : a2.IsWhole)
    (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S4096x128 .f32) (h6 : a6.IsWhole)
    (a7 : Memref sig .tc .vmem S1x128 .f32) (h7 : a7.IsWhole) (a8 : Memref sig .tc .vmem S1x128 .f32) (h8 : a8.IsWhole)
    (hc : ¬cond0_0 i) (x0 x1 : Vec F S4096x128 .f32) (x2 x3 x4 : Vec F S128x128 .f32) (xo6 xo7 : Vec F S1x128 .f32) :
    out0_B_5 c i a1 h1 a2 h2 a3 h3 a4 h4 a5 h5 a6 h6 a7 h7 a8 h8 hc x0 x1 x2 x3 x4 xo6 xo7 = k0_pay2 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread,
    View.ld_unit_zero (S := S4096x128) hz, View.ld_unit_zero (S := S128x128) hz]

/-- The body's product on row blocks is the row block of the host's product: with x and h rows 4096·t … of X and H, the two
    weight blocks of the first layer the top and the bottom 128 rows of W0, and the last block W1 itself,
    (x · W0_top + h · W0_bottom) · W1 is rows 4096·t … of ([X | H] · W0) · W1. A change of float format is the identity on
    extended reals, and so is a cast of a matrix to its own shape. -/
theorem pay2_rows {t : Nat} (D1 : DotDims ⟨2, ![131072, 256]⟩ ⟨2, ![256, 128]⟩ ⟨2, ![131072, 128]⟩) (hD1 : IsRows.Plain D1 1 0 0 1)
    (D2 : DotDims ⟨2, ![131072, 128]⟩ ⟨2, ![128, 128]⟩ ⟨2, ![131072, 128]⟩) (hD2 : IsRows.Plain D2 1 0 0 1)
    (hc : Shape.Concatenates [(⟨2, ![131072, 128]⟩ : Shape), ⟨2, ![131072, 128]⟩] ⟨2, ![131072, 256]⟩ 1)
    (X H : FVec Ideal S131072x128 .f32) (W0 : FVec Ideal S256x128 .f32) (W1 : FVec Ideal S128x128 .f32)
    (x h : Vec Ideal S4096x128 .f32) (w0x w0h w1 : Vec Ideal S128x128 .f32)
    (HX : IsRows 4096 t X x) (HH : IsRows 4096 t H h)
    (hx : w0x = extractStridedSlice S128x128 ![0, 0] W0 slices_S256x128_S128x128_0_0)
    (hh : w0h = extractStridedSlice S128x128 ![128, 0] W0 slices_S256x128_S128x128_128_0)
    (h1 : w1 = W1) :
    IsRows 4096 t (zHost D1 D2 hc X H W0 W1) (k0_pay2 x h w0x w0h w1) := by
  subst hx hh h1
  unfold k0_pay2
  have hd : IsRows.Plain dot_S4096x128_S128x128_S4096x128_1_0_0_1_n_n 1 0 0 1 := ⟨rfl, rfl, rfl, rfl, rfl, rfl⟩
  -- the first layer: the two products into zero, summed, against the product with the two matrices side by side
  have L1 := IsRows.dot_concat2 (K := 128) (K2 := 256) (M := 128) rfl (HX.trunc bitsLt_bf16_f32) (HH.trunc bitsLt_bf16_f32) hc D1
    dot_S4096x128_S128x128_S4096x128_1_0_0_1_n_n hD1 hd W0
    (truncf .bf16 (shapeCast S128x128 (extractStridedSlice S128x128 ![0, 0] W0 slices_S256x128_S128x128_0_0) shapeCasts_S128x128_S128x128) bitsLt_bf16_f32)
    (truncf .bf16 (shapeCast S128x128 (extractStridedSlice S128x128 ![128, 0] W0 slices_S256x128_S128x128_128_0) shapeCasts_S128x128_S128x128) bitsLt_bf16_f32)
    (fun k k' j hk => by
      show shapeCast S128x128 (extractStridedSlice S128x128 ![0, 0] W0 slices_S256x128_S128x128_0_0) shapeCasts_S128x128_S128x128 (ix2 k j) = _
      rw [shapeCast_self]
      exact slice2_axis0_apply 0 W0 _ k j k' (by omega))
    (fun k k' j hk => by
      show shapeCast S128x128 (extractStridedSlice S128x128 ![128, 0] W0 slices_S256x128_S128x128_128_0) shapeCasts_S128x128_S128x128 (ix2 k j) = _
      rw [shapeCast_self]
      exact slice2_axis0_apply 128 W0 _ k j k' hk)
  -- the second layer: a product with the same matrix on the right
  exact (L1.trunc bitsLt_bf16_f32).dot D2 dot_S4096x128_S128x128_S4096x128_1_0_0_1_n_n hD2 hd w1 (truncf .bf16 w1 bitsLt_bf16_f32) (fun _ _ => rfl)

/-- What point t leaves in z's staging buffer is the body's product of the point's blocks (either case of the reset). -/
theorem z_block (c : Dev nD) (t : Fin cfg0.N) :
    (outsAt0 (V1 m ρ) c t.val t.isLt).1 = k0_pay2 (iblk0 (V1 m ρ) c 0 t) (iblk0 (V1 m ρ) c 1 t) (iblk0 (V1 m ρ) c 2 t) (iblk0 (V1 m ρ) c 3 t) (iblk0 (V1 m ρ) c 4 t) := by
  by_cases h : t.val % 32 = 0
  · rw [outsAt0_A (V1 m ρ) c t h]
    dsimp only
    exact zpiece_A c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) ((hcond0_0 t).mpr h)
      (iblk0 (V1 m ρ) c 0 t) (iblk0 (V1 m ρ) c 1 t) (iblk0 (V1 m ρ) c 2 t) (iblk0 (V1 m ρ) c 3 t) (iblk0 (V1 m ρ) c 4 t)
  · rw [outsAt0_B (V1 m ρ) c t h]
    dsimp only
    exact zpiece_B c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (fun h' => h ((hcond0_0 t).mp h'))
      (iblk0 (V1 m ρ) c 0 t) (iblk0 (V1 m ρ) c 1 t) (iblk0 (V1 m ρ) c 2 t) (iblk0 (V1 m ρ) c 3 t) (iblk0 (V1 m ρ) c 4 t)
      (outsAt0 (V1 m ρ) c (t.val - 1) (Nat.lt_of_le_of_lt (Nat.sub_le _ _) t.isLt)).2.1
      (outsAt0 (V1 m ρ) c (t.val - 1) (Nat.lt_of_le_of_lt (Nat.sub_le _ _) t.isLt)).2.2

/-- … which is rows 4096·t … of ([x | h] · W0) · W1, for any records of the plain product's dimension numbers. -/
theorem z_rows (D1 : DotDims ⟨2, ![131072, 256]⟩ ⟨2, ![256, 128]⟩ ⟨2, ![131072, 128]⟩) (hD1 : IsRows.Plain D1 1 0 0 1)
    (D2 : DotDims ⟨2, ![131072, 128]⟩ ⟨2, ![128, 128]⟩ ⟨2, ![131072, 128]⟩) (hD2 : IsRows.Plain D2 1 0 0 1)
    (hc : Shape.Concatenates [(⟨2, ![131072, 128]⟩ : Shape), ⟨2, ![131072, 128]⟩] ⟨2, ![131072, 256]⟩ 1)
    (c : Dev nD) (t : Fin cfg0.N) :
    IsRows 4096 t.val (zHost D1 D2 hc (xA m c) (hA m c) (w0A m c) (w1A m c)) ((outsAt0 (V1 m ρ) c t.val t.isLt).1) := by
  rw [z_block m ρ c t]
  exact pay2_rows D1 hD1 D2 hD2 hc (xA m c) (hA m c) (w0A m c) (w1A m c) _ _ _ _ _
    (iblk0_x m ρ c t) (iblk0_h m ρ c t) (iblk0_w0x m ρ c t) (iblk0_w0h m ρ c t) (iblk0_w1 m ρ c t)

end Cert.Hand.Region0

end
-- ==== Proof.Region0Acc.lean ====
/-
  The two accumulators of region 0.

  Beside z, region 0 keeps two one-row matrices whose block never moves: the first grid point resets both to zero,
  and every point adds to the first the column sums of its z block and to the second the column sums of the squares of
  its z block. A point's z block is rows 4096·t … of z, so after the last of the 32 points the first accumulator
  holds, in column j, the sum over all 131072 rows of z(·, j), and the second the sum of z(·, j)². Commutativity and
  associativity of addition and 0 + a = a are all that is used; they hold on the extended reals, infinities included.
-/
import proofs.«113356_j38199439131313_1_alg».proof.Proof.Region0

noncomputable section

namespace Cert.Hand.Region0Acc

open Cert.KernelIdeal Cert.KernelIdeal.Gen Cert.Hand.KBase Cert.RowBlock Cert.Hand.Blocks Cert.Hand.Region0
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What each case of the body leaves in the two accumulators -/

section Pieces
variable {F : FTy → Type} [FloatOps F]

theorem hz : (![0, 0] : Fin 2 → Nat) = fun _ => 0 := funext fun a => by fin_cases a <;> rfl

/-- A later point leaves, in the first accumulator holding `xo6`, that row plus the column sums of the point's z block. -/
theorem pieceB6 (c : Dev nD) (i : grid0.Coords) (a1 : Memref sig .tc .vmem S4096x128 .f32) (h1 : a1.IsWhole) (a2 : Memref sig .tc .vmem S4096x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S4096x128 .f32) (h6 : a6.IsWhole) (a7 : Memref sig .tc .vmem S1x128 .f32) (h7 : a7.IsWhole) (a8 : Memref sig .tc .vmem S1x128 .f32) (h8 : a8.IsWhole) (hc : ¬cond0_0 i)
    (x0 x1 : Vec F S4096x128 .f32) (x2 x3 x4 : Vec F S128x128 .f32) (xo6 xo7 : Vec F S1x128 .f32) :
    out0_B_6 c i a1 h1 a2 h2 a3 h3 a4 h4 a5 h5 a6 h6 a7 h7 a8 h8 hc x0 x1 x2 x3 x4 xo6 xo7 = k0_pay6 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S4096x128) hz, View.ld_unit_zero (S := S128x128) hz, View.ld_unit_zero (S := S1x128) hz]

/-- … and in the second, holding `xo7`, that row plus the column sums of the squares. -/
theorem pieceB7 (c : Dev nD) (i : grid0.Coords) (a1 : Memref sig .tc .vmem S4096x128 .f32) (h1 : a1.IsWhole) (a2 : Memref sig .tc .vmem S4096x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S4096x128 .f32) (h6 : a6.IsWhole) (a7 : Memref sig .tc .vmem S1x128 .f32) (h7 : a7.IsWhole) (a8 : Memref sig .tc .vmem S1x128 .f32) (h8 : a8.IsWhole) (hc : ¬cond0_0 i)
    (x0 x1 : Vec F S4096x128 .f32) (x2 x3 x4 : Vec F S128x128 .f32) (xo6 xo7 : Vec F S1x128 .f32) :
    out0_B_7 c i a1 h1 a2 h2 a3 h3 a4 h4 a5 h5 a6 h6 a7 h7 a8 h8 hc x0 x1 x2 x3 x4 xo6 xo7 = k0_pay1 (k0_pay3 x0 x1 x2 x3 x4) xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S4096x128) hz, View.ld_unit_zero (S := S128x128) hz, View.ld_unit_zero (S := S1x128) hz]

/-- The first point stores the zero row, reads it back and leaves it plus the column sums of its z block. -/
theorem pieceA6 (c : Dev nD) (i : grid0.Coords) (a1 : Memref sig .tc .vmem S4096x128 .f32) (h1 : a1.IsWhole) (a2 : Memref sig .tc .vmem S4096x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S4096x128 .f32) (h6 : a6.IsWhole) (a7 : Memref sig .tc .vmem S1x128 .f32) (h7 : a7.IsWhole) (a8 : Memref sig .tc .vmem S1x128 .f32) (h8 : a8.IsWhole) (hc : cond0_0 i)
    (x0 x1 : Vec F S4096x128 .f32) (x2 x3 x4 : Vec F S128x128 .f32) :
    out0_A_6 c i a1 h1 a2 h2 a3 h3 a4 h4 a5 h5 a6 h6 a7 h7 a8 h8 hc x0 x1 x2 x3 x4 = k0_pay6 x0 x1 x2 x3 x4 k0_pay4 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S4096x128) hz, View.ld_unit_zero (S := S128x128) hz, View.ld_unit_zero (S := S1x128) hz]

/-- … and likewise for the squares. -/
theorem pieceA7 (c : Dev nD) (i : grid0.Coords) (a1 : Memref sig .tc .vmem S4096x128 .f32) (h1 : a1.IsWhole) (a2 : Memref sig .tc .vmem S4096x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S4096x128 .f32) (h6 : a6.IsWhole) (a7 : Memref sig .tc .vmem S1x128 .f32) (h7 : a7.IsWhole) (a8 : Memref sig .tc .vmem S1x128 .f32) (h8 : a8.IsWhole) (hc : cond0_0 i)
    (x0 x1 : Vec F S4096x128 .f32) (x2 x3 x4 : Vec F S128x128 .f32) :
    out0_A_7 c i a1 h1 a2 h2 a3 h3 a4 h4 a5 h5 a6 h6 a7 h7 a8 h8 hc x0 x1 x2 x3 x4 = k0_pay1 (k0_pay3 x0 x1 x2 x3 x4) k0_pay5 := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S4096x128) hz, View.ld_unit_zero (S := S128x128) hz, View.ld_unit_zero (S := S1x128) hz]

end Pieces

/-! ## The stored rows at a column, over the extended reals -/

/-- The row with the block's column sums added, at column j: the entry plus the sum over the block's rows. -/
theorem pay6_apply (x0 x1 : Vec Ideal S4096x128 .f32) (x2 x3 x4 : Vec Ideal S128x128 .f32) (acc : Vec Ideal S1x128 .f32) (j : Fin 128) :
    k0_pay6 x0 x1 x2 x3 x4 acc (ix2 (0 : Fin 1) j)
      = acc (ix2 (0 : Fin 1) j) + ∑ p : Fin 4096, k0_pay2 x0 x1 x2 x3 x4 (ix2 p j) := by
  unfold k0_pay6
  dsimp only
  rw [addf_apply, shapeCast_self, shapeCast_a_1a_apply]
  exact congrArg (fun s => acc (ix2 (0 : Fin 1) j) + s)
    (colSum_apply (B := 4096) (n := 128) (k0_pay2 x0 x1 x2 x3 x4) reduces_S4096x128_S128 (.inl rfl) rfl j)

/-- The row with the column sums of the squares added, at column j. -/
theorem pay1_apply (x0 x1 : Vec Ideal S4096x128 .f32) (x2 x3 x4 : Vec Ideal S128x128 .f32) (acc : Vec Ideal S1x128 .f32) (j : Fin 128) :
    k0_pay1 (k0_pay3 x0 x1 x2 x3 x4) acc (ix2 (0 : Fin 1) j)
      = acc (ix2 (0 : Fin 1) j) + ∑ p : Fin 4096, k0_pay2 x0 x1 x2 x3 x4 (ix2 p j) * k0_pay2 x0 x1 x2 x3 x4 (ix2 p j) := by
  unfold k0_pay1 k0_pay3
  dsimp only
  rw [addf_apply, shapeCast_self, shapeCast_a_1a_apply]
  exact congrArg (fun s => acc (ix2 (0 : Fin 1) j) + s)
    (colSum_apply (B := 4096) (n := 128) (mulf (k0_pay2 x0 x1 x2 x3 x4) (k0_pay2 x0 x1 x2 x3 x4)) reduces_S4096x128_S128 (.inl rfl) rfl j)

/-- The reset rows are zero. -/
theorem pay4_apply (j : Fin 128) : (k0_pay4 (F := Ideal)) (ix2 (0 : Fin 1) j) = 0 := Ideal.ofBits_zero_f32
theorem pay5_apply (j : Fin 128) : (k0_pay5 (F := Ideal)) (ix2 (0 : Fin 1) j) = 0 := Ideal.ofBits_zero_f32

/-! ## One point's step -/

/-- The first point leaves zero plus its block's column sums. -/
theorem sum_first (c : Dev nD) (t : Fin cfg0.N) (h0 : t.val % 32 = 0) (j : Fin 128) :
    (outsAt0 (V1 m ρ) c t.val t.isLt).2.1 (ix2 (0 : Fin 1) j)
      = 0 + ∑ p : Fin 4096, (outsAt0 (V1 m ρ) c t.val t.isLt).1 (ix2 p j) := by
  rw [z_block m ρ c t, outsAt0_A (V1 m ρ) c t h0]
  dsimp only
  refine (congrFun (pieceA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 (V1 m ρ) c 0 t) (iblk0 (V1 m ρ) c 1 t) (iblk0 (V1 m ρ) c 2 t) (iblk0 (V1 m ρ) c 3 t) (iblk0 (V1 m ρ) c 4 t)) (ix2 (0 : Fin 1) j)).trans ?_
  rw [pay6_apply, pay4_apply]

/-- A later point adds its block's column sums to what the point before left. -/
theorem sum_next (c : Dev nD) (t : Fin cfg0.N) (h0 : ¬t.val % 32 = 0) (j : Fin 128) :
    (outsAt0 (V1 m ρ) c t.val t.isLt).2.1 (ix2 (0 : Fin 1) j)
      = (outsAt0 (V1 m ρ) c (t.val - 1) (Nat.lt_of_le_of_lt (Nat.sub_le _ _) t.isLt)).2.1 (ix2 (0 : Fin 1) j) + ∑ p : Fin 4096, (outsAt0 (V1 m ρ) c t.val t.isLt).1 (ix2 p j) := by
  rw [z_block m ρ c t, outsAt0_B (V1 m ρ) c t h0]
  dsimp only
  refine (congrFun (pieceB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 (V1 m ρ) c 0 t) (iblk0 (V1 m ρ) c 1 t) (iblk0 (V1 m ρ) c 2 t) (iblk0 (V1 m ρ) c 3 t) (iblk0 (V1 m ρ) c 4 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2) (ix2 (0 : Fin 1) j)).trans ?_
  rw [pay6_apply]

/-- The same two steps for the squares. -/
theorem sq_first (c : Dev nD) (t : Fin cfg0.N) (h0 : t.val % 32 = 0) (j : Fin 128) :
    (outsAt0 (V1 m ρ) c t.val t.isLt).2.2 (ix2 (0 : Fin 1) j)
      = 0 + ∑ p : Fin 4096, (outsAt0 (V1 m ρ) c t.val t.isLt).1 (ix2 p j) * (outsAt0 (V1 m ρ) c t.val t.isLt).1 (ix2 p j) := by
  rw [z_block m ρ c t, outsAt0_A (V1 m ρ) c t h0]
  dsimp only
  refine (congrFun (pieceA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 (V1 m ρ) c 0 t) (iblk0 (V1 m ρ) c 1 t) (iblk0 (V1 m ρ) c 2 t) (iblk0 (V1 m ρ) c 3 t) (iblk0 (V1 m ρ) c 4 t)) (ix2 (0 : Fin 1) j)).trans ?_
  rw [pay1_apply, pay5_apply]

theorem sq_next (c : Dev nD) (t : Fin cfg0.N) (h0 : ¬t.val % 32 = 0) (j : Fin 128) :
    (outsAt0 (V1 m ρ) c t.val t.isLt).2.2 (ix2 (0 : Fin 1) j)
      = (outsAt0 (V1 m ρ) c (t.val - 1) (Nat.lt_of_le_of_lt (Nat.sub_le _ _) t.isLt)).2.2 (ix2 (0 : Fin 1) j) + ∑ p : Fin 4096, (outsAt0 (V1 m ρ) c t.val t.isLt).1 (ix2 p j) * (outsAt0 (V1 m ρ) c t.val t.isLt).1 (ix2 p j) := by
  rw [z_block m ρ c t, outsAt0_B (V1 m ρ) c t h0]
  dsimp only
  refine (congrFun (pieceB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 (V1 m ρ) c 0 t) (iblk0 (V1 m ρ) c 1 t) (iblk0 (V1 m ρ) c 2 t) (iblk0 (V1 m ρ) c 3 t) (iblk0 (V1 m ρ) c 4 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2) (ix2 (0 : Fin 1) j)).trans ?_
  rw [pay1_apply]

/-! ## The recursion over the 32 points -/

/-- The same point named by two equal numbers leaves the same contents. -/
theorem outsAt0_congr (c : Dev nD) {a b : ℕ} (e : a = b) (ha : a < cfg0.N) (hb : b < cfg0.N) :
    outsAt0 (V1 m ρ) c a ha = outsAt0 (V1 m ρ) c b hb := by
  subst e; rfl

/-- A quantity kept over the grid that starts at zero plus the first block's contribution and grows by each later
    block's contribution — the contribution of a block being the sum over its rows of a function f of its entries in
    column j — ends at the sum of f over all rows of the matrix whose row blocks the points' blocks are. -/
theorem total_rows (c : Dev nD) (Z : FVec Ideal S131072x128 .f32)
    (hZ : ∀ t : Fin cfg0.N, IsRows 4096 t.val Z ((outsAt0 (V1 m ρ) c t.val t.isLt).1)) (j : Fin 128)
    (f : Ideal .f32 → Ideal .f32) (A : (n : ℕ) → n < cfg0.N → Ideal .f32)
    (hfirst : ∀ t : Fin cfg0.N, t.val % 32 = 0 →
      A t.val t.isLt = 0 + ∑ p : Fin 4096, f ((outsAt0 (V1 m ρ) c t.val t.isLt).1 (ix2 p j)))
    (hnext : ∀ t : Fin cfg0.N, ¬t.val % 32 = 0 →
      A t.val t.isLt = A (t.val - 1) (Nat.lt_of_le_of_lt (Nat.sub_le _ _) t.isLt)
        + ∑ p : Fin 4096, f ((outsAt0 (V1 m ρ) c t.val t.isLt).1 (ix2 p j))) :
    A 31 lt31 = ∑ r : Fin 131072, f (Z (ix2 r j)) := by
  have hN : cfg0.N = 32 := N_0
  have hA : ∀ {a b : ℕ} (e : a = b) (ha : a < cfg0.N) (hb : b < cfg0.N), A a ha = A b hb := by
    intro a b e ha hb; subst e; rfl
  -- the running total and the blocks' contributions as functions of the point's number (zero outside the grid)
  have key := Stats.total_32
    (fun n => if h : n < cfg0.N then A n h else 0)
    (fun n => if h : n < cfg0.N then ∑ p : Fin 4096, f ((outsAt0 (V1 m ρ) c n h).1 (ix2 p j)) else 0)
    (by
      have h : 0 < cfg0.N := by rw [hN]; decide
      simp only [dif_pos h]
      exact hfirst ⟨0, h⟩ rfl)
    (by
      intro n hn
      have h1 : n + 1 < cfg0.N := by rw [hN]; exact hn
      have h2 : n < cfg0.N := Nat.lt_of_succ_lt h1
      simp only [dif_pos h1, dif_pos h2]
      refine (hnext ⟨n + 1, h1⟩ (by dsimp only; omega)).trans ?_
      exact congrArg (fun s => s + ∑ p : Fin 4096, f ((outsAt0 (V1 m ρ) c (n + 1) h1).1 (ix2 p j)))
        (hA (Nat.add_sub_cancel n 1) _ h2))
  simp only [dif_pos lt31] at key
  rw [key, Stats.sum_rows (fun r => f (Z (ix2 r j)))]
  refine Finset.sum_congr rfl fun t _ => ?_
  have ht : t.val < cfg0.N := by rw [hN]; exact t.isLt
  rw [dif_pos ht]
  refine Finset.sum_congr rfl fun p _ => ?_
  exact congrArg f (hZ ⟨t.val, ht⟩ p j (Stats.rowOf t p) rfl)

/-! ## The two accumulators after the last point -/

/-- The accumulated column sums: if every point's z block is the row block of Z, the first accumulator ends, in
    column j, at the sum of column j of Z over all rows. -/
theorem sum_acc (c : Dev nD) (Z : FVec Ideal S131072x128 .f32)
    (hZ : ∀ t : Fin cfg0.N, IsRows 4096 t.val Z ((outsAt0 (V1 m ρ) c t.val t.isLt).1)) (j : Fin 128) :
    (outsAt0 (V1 m ρ) c 31 lt31).2.1 (ix2 (0 : Fin 1) j) = ∑ r : Fin 131072, Z (ix2 r j) := by
  exact total_rows m ρ c Z hZ j (fun x => x) (fun n h => (outsAt0 (V1 m ρ) c n h).2.1 (ix2 (0 : Fin 1) j))
    (fun t h0 => sum_first m ρ c t h0 j) (fun t h0 => sum_next m ρ c t h0 j)

/-- … and the second at the sum of the squares. -/
theorem sq_acc (c : Dev nD) (Z : FVec Ideal S131072x128 .f32)
    (hZ : ∀ t : Fin cfg0.N, IsRows 4096 t.val Z ((outsAt0 (V1 m ρ) c t.val t.isLt).1)) (j : Fin 128) :
    (outsAt0 (V1 m ρ) c 31 lt31).2.2 (ix2 (0 : Fin 1) j) = ∑ r : Fin 131072, Z (ix2 r j) * Z (ix2 r j) := by
  exact total_rows m ρ c Z hZ j (fun x => x * x) (fun n h => (outsAt0 (V1 m ρ) c n h).2.2 (ix2 (0 : Fin 1) j))
    (fun t h0 => sq_first m ρ c t h0 j) (fun t h0 => sq_next m ρ c t h0 j)

end Cert.Hand.Region0Acc

end
-- ==== Proof.HeadSpec.lean ====
/-
  The head of the network on a whole matrix, spelt as a host program spells it.

  From the backbone's output z (131072 × 128), the per-column mean and reciprocal standard deviation, the scale and the
  shift: the normalised matrix zn = (z − mean) · inv · γ + β (the four vectors laid as rows and repeated over all rows);
  the leaky rectifier zr = zn where zn > 0, else 0.01·zn; four affine maps of zr, g = tanh(zr·Wg + bg),
  f = zr·Wf + bf, hh = tanh(zr·Wh + bh), τ = zr·Wt + bt; the gate σ = 1 / (1 + e^(−(τ + f)·t)), t the time column
  repeated over the columns; and the result hh·(1 − σ) + g·σ.
-/
import Idealize.ShloMosaic.PureOps
import Idealize.ShloMosaic.PureOps.Ideal

noncomputable section

namespace Cert.Hand.HeadSpec

open Idealize.ShloMosaic

abbrev SN : Shape := ⟨2, ![131072, 128]⟩
abbrev SC : Shape := ⟨2, ![131072, 1]⟩
abbrev SW : Shape := ⟨2, ![128, 128]⟩
abbrev SV : Shape := ⟨1, ![128]⟩
abbrev SR : Shape := ⟨2, ![1, 128]⟩
abbrev S0 : Shape := ⟨0, ![]⟩

section
variable (D : DotDims SN SW SN)
  (h1 : SV.BroadcastsInDim SR (![1] : Fin 1 → Fin SR.rank))
  (h2 : SR.BroadcastsInDim SN (![0, 1] : Fin 2 → Fin SN.rank))
  (h0 : S0.BroadcastsInDim SN (![] : Fin 0 → Fin SN.rank))
  (hcol : SC.BroadcastsInDim SN (![0, 1] : Fin 2 → Fin SN.rank))

/-- A vector laid as a row and repeated over all rows. -/
abbrev rows (v : FVec Ideal SV .f32) : FVec Ideal SN .f32 := broadcastInDim SN ![0, 1] h2 (broadcastInDim SR ![1] h1 v)
/-- A constant in every place. -/
abbrev splat (w : BitVec 32) : FVec Ideal SN .f32 := broadcastInDim SN ![] h0 (constant (F := Ideal) S0 .f32 w)

/-- The normalised matrix. -/
def zn (Z : FVec Ideal SN .f32) (mean inv gamma beta : FVec Ideal SV .f32) : FVec Ideal SN .f32 :=
  addf (mulf (mulf (subf Z (rows h1 h2 mean)) (rows h1 h2 inv)) (rows h1 h2 gamma)) (rows h1 h2 beta)

/-- The leaky rectifier of a matrix. -/
def leaky (A : FVec Ideal SN .f32) : FVec Ideal SN .f32 :=
  select (cmpf .ogt A (splat h0 0x00000000#32)) A (mulf (splat h0 0x3C23D70A#32) A)

/-- An affine map of a matrix: the product with a matrix on the right plus a bias row. -/
def affine (A : FVec Ideal SN .f32) (W : FVec Ideal SW .f32) (b : FVec Ideal SV .f32) : FVec Ideal SN .f32 :=
  addf (Host.dotGeneral D none A W) (rows h1 h2 b)

/-- The gate. -/
def gate (S : FVec Ideal SN .f32) : FVec Ideal SN .f32 :=
  Host.divf (splat h0 0x3F800000#32) (addf (splat h0 0x3F800000#32) (Host.exp (Host.negf S)))

/-- The head, from the rectified matrix on. -/
def mix (A : FVec Ideal SN .f32) (T : FVec Ideal SC .f32) (Wg : FVec Ideal SW .f32) (bg : FVec Ideal SV .f32)
    (Wf : FVec Ideal SW .f32) (bf : FVec Ideal SV .f32) (Wh : FVec Ideal SW .f32) (bh : FVec Ideal SV .f32)
    (Wt : FVec Ideal SW .f32) (bt : FVec Ideal SV .f32) : FVec Ideal SN .f32 :=
  addf (mulf (Host.tanh (affine D h1 h2 A Wh bh))
        (subf (splat h0 0x3F800000#32)
          (gate h0 (mulf (addf (affine D h1 h2 A Wt bt) (affine D h1 h2 A Wf bf)) (broadcastInDim SN ![0, 1] hcol T)))))
    (mulf (Host.tanh (affine D h1 h2 A Wg bg))
      (gate h0 (mulf (addf (affine D h1 h2 A Wt bt) (affine D h1 h2 A Wf bf)) (broadcastInDim SN ![0, 1] hcol T))))

/-- The whole head. -/
def head (Z : FVec Ideal SN .f32) (T : FVec Ideal SC .f32) (mean inv gamma beta : FVec Ideal SV .f32)
    (Wg : FVec Ideal SW .f32) (bg : FVec Ideal SV .f32) (Wf : FVec Ideal SW .f32) (bf : FVec Ideal SV .f32)
    (Wh : FVec Ideal SW .f32) (bh : FVec Ideal SV .f32) (Wt : FVec Ideal SW .f32) (bt : FVec Ideal SV .f32) : FVec Ideal SN .f32 :=
  mix D h1 h2 h0 hcol (leaky h0 (zn h1 h2 Z mean inv gamma beta)) T Wg bg Wf bf Wh bh Wt bt

end

end Cert.Hand.HeadSpec

end
-- ==== Proof.Region1Head.lean ====
/-
  The head on a row block: what region 1 stores at a grid point is the row block of the head of the whole matrix.

  Region 1's body holds, at a point, rows 4096·t … of z and of the time column, and every small operand whole: the
  mean, the reciprocal standard deviation, the scale, the shift and the four biases as one-row matrices, the four
  weight matrices. Every operation of the head computes row r of its result from row r of its matrix operands and
  from the small operands alone, so the block's head is rows 4096·t … of the whole matrix's head. The kernel's one
  logistic operation and the host's 1 / (1 + e^(−x)) are one function of an extended real, as are the two hyperbolic
  tangents; a change of float format is the identity.
-/
import proofs.«113356_j38199439131313_1_alg».proof.Proof.Gen.KernelIdeal.Frame
import proofs.«113356_j38199439131313_1_alg».proof.Proof.LibRowBcast
import proofs.«113356_j38199439131313_1_alg».proof.Proof.HeadSpec
import Idealize.ShloMosaic.Lib.Tactic

noncomputable section

namespace Cert.Hand.Region1Head

open Cert.KernelIdeal Cert.KernelIdeal.Gen Cert.RowBlock Cert.Hand.HeadSpec
open Idealize.ShloMosaic Idealize.ShloMosaic.TcCoe Idealize.ShloMosaic.ValueIdx Idealize.SL.Sem

/-! ## The stages of the head, block against whole -/

section Stages

variable {t : ℕ}

/-- A one-row operand repeated over the block's 4096 rows is the row block of the vector laid as a row and repeated
    over all 131072 rows: entry (p, j) of either is entry j of the vector. -/
theorem row_rows (h1 : SV.BroadcastsInDim SR (![1] : Fin 1 → Fin SR.rank))
    (h2 : SR.BroadcastsInDim SN (![0, 1] : Fin 2 → Fin SN.rank))
    (b : FVec Ideal SV .f32) (v : Vec Ideal S1x128 .f32) (hv : ∀ j : Fin 128, v (ix2 (0 : Fin 1) j) = b (ix1 j)) :
    IsRows 4096 t (rows h1 h2 b)
      (broadcastTo S4096x128 (shapeCast S1x128 v shapeCasts_S1x128_S1x128) broadcasts_S1x128_S4096x128) :=
  IsRows.row_bcast b v hv h1 h2 shapeCasts_S1x128_S1x128 broadcasts_S1x128_S4096x128

/-- The normalised block (z − mean)·inv·γ + β: a difference, two products and a sum, entry by entry, of the block of z
    with four one-row operands. -/
theorem zn_rows (h1 : SV.BroadcastsInDim SR (![1] : Fin 1 → Fin SR.rank))
    (h2 : SR.BroadcastsInDim SN (![0, 1] : Fin 2 → Fin SN.rank))
    (Z : FVec Ideal SN .f32) (mean inv gamma beta : FVec Ideal SV .f32)
    (z : Vec Ideal S4096x128 .f32) (mean2 inv2 gamma2 beta2 : Vec Ideal S1x128 .f32)
    (hz : IsRows 4096 t Z z)
    (hmean : ∀ j : Fin 128, mean2 (ix2 (0 : Fin 1) j) = mean (ix1 j)) (hinv : ∀ j : Fin 128, inv2 (ix2 (0 : Fin 1) j) = inv (ix1 j))
    (hgamma : ∀ j : Fin 128, gamma2 (ix2 (0 : Fin 1) j) = gamma (ix1 j)) (hbeta : ∀ j : Fin 128, beta2 (ix2 (0 : Fin 1) j) = beta (ix1 j)) :
    IsRows 4096 t (zn h1 h2 Z mean inv gamma beta)
      (addf (mulf (mulf (subf (shapeCast S4096x128 z shapeCasts_S4096x128_S4096x128)
          (broadcastTo S4096x128 (shapeCast S1x128 mean2 shapeCasts_S1x128_S1x128) broadcasts_S1x128_S4096x128))
          (broadcastTo S4096x128 (shapeCast S1x128 inv2 shapeCasts_S1x128_S1x128) broadcasts_S1x128_S4096x128))
          (broadcastTo S4096x128 (shapeCast S1x128 gamma2 shapeCasts_S1x128_S1x128) broadcasts_S1x128_S4096x128))
        (broadcastTo S4096x128 (shapeCast S1x128 beta2 shapeCasts_S1x128_S1x128) broadcasts_S1x128_S4096x128)) := by
  unfold zn
  exact ((((hz.cast_self shapeCasts_S4096x128_S4096x128).sub (row_rows h1 h2 mean mean2 hmean)).mul
    (row_rows h1 h2 inv inv2 hinv)).mul (row_rows h1 h2 gamma gamma2 hgamma)).add (row_rows h1 h2 beta beta2 hbeta)

/-- The leaky rectifier: a comparison with the zero constant, a product with the slope constant, and a select, entry
    by entry; the constants are the same words on both sides. -/
theorem leaky_rows (h0 : S0.BroadcastsInDim SN (![] : Fin 0 → Fin SN.rank))
    {A : FVec Ideal SN .f32} {a : FVec Ideal S4096x128 .f32} (H : IsRows 4096 t A a) :
    IsRows 4096 t (leaky h0 A)
      (select (cmpf .ogt a (broadcast S4096x128 (Scalar.ofBits (F := Ideal) .f32 0x00000000#32))) a
        (mulf (broadcast S4096x128 (Scalar.ofBits (F := Ideal) .f32 0x3C23D70A#32)) a)) := by
  unfold leaky
  exact IsRows.sel (IsRows.cmp H (IsRows.splat .f32 0x00000000#32 h0) .ogt) H
    (IsRows.mul (IsRows.splat .f32 0x3C23D70A#32 h0) H)

/-- A product with a weight matrix on the right: row r of the product reads row r of the left operand only; the
    changes of format on both operands are the identity. -/
theorem dot_rows (D : DotDims SN SW SN) (hD : IsRows.Plain D 1 0 0 1)
    {A : FVec Ideal SN .f32} {a : FVec Ideal S4096x128 .f32} (H : IsRows 4096 t A a)
    (W : FVec Ideal SW .f32) (w : Vec Ideal S128x128 .f32) (hw : w = W) :
    IsRows 4096 t (Host.dotGeneral D none A W)
      (matmul dot_S4096x128_S128x128_S4096x128_1_0_0_1_n_n none (truncf .bf16 a bitsLt_bf16_f32)
        (truncf .bf16 w bitsLt_bf16_f32) (constant S4096x128 .f32 0x00000000#32)) :=
  IsRows.dot (H.trunc bitsLt_bf16_f32) D dot_S4096x128_S128x128_S4096x128_1_0_0_1_n_n hD ⟨rfl, rfl, rfl, rfl, rfl, rfl⟩
    W (truncf .bf16 w bitsLt_bf16_f32) (fun k j => by rw [hw]; rfl)

end Stages

section Stages2

variable {t : ℕ}

/-- An affine map of the rectified block: the product with the weight matrix plus the bias row. -/
theorem affine_rows (D : DotDims SN SW SN) (hD : IsRows.Plain D 1 0 0 1)
    (h1 : SV.BroadcastsInDim SR (![1] : Fin 1 → Fin SR.rank))
    (h2 : SR.BroadcastsInDim SN (![0, 1] : Fin 2 → Fin SN.rank))
    {A : FVec Ideal SN .f32} {a : FVec Ideal S4096x128 .f32} (H : IsRows 4096 t A a)
    (W : FVec Ideal SW .f32) (w : Vec Ideal S128x128 .f32) (hw : w = W)
    (b : FVec Ideal SV .f32) (b2 : Vec Ideal S1x128 .f32) (hb : ∀ j : Fin 128, b2 (ix2 (0 : Fin 1) j) = b (ix1 j)) :
    IsRows 4096 t (affine D h1 h2 A W b)
      (addf (matmul dot_S4096x128_S128x128_S4096x128_1_0_0_1_n_n none (truncf .bf16 a bitsLt_bf16_f32)
          (truncf .bf16 w bitsLt_bf16_f32) (constant S4096x128 .f32 0x00000000#32))
        (broadcastTo S4096x128 (shapeCast S1x128 b2 shapeCasts_S1x128_S1x128) broadcasts_S1x128_S4096x128)) := by
  unfold affine
  exact (dot_rows D hD H W w hw).add (row_rows h1 h2 b b2 hb)

/-- The gate 1 / (1 + e^(−x)), spelt with a negation, an exponential, a sum and a quotient on the whole matrix and as
    one logistic operation on the block: one function of an extended real. -/
theorem gate_rows (h0 : S0.BroadcastsInDim SN (![] : Fin 0 → Fin SN.rank))
    {S : FVec Ideal SN .f32} {s : FVec Ideal S4096x128 .f32} (H : IsRows 4096 t S s) :
    IsRows 4096 t (gate h0 S) (logistic s) := by
  unfold gate
  exact IsRows.sigmoid H h0 h0

/-- The blend hh·(1 − σ) + g·σ with σ the gate of (τ + f)·t, t the time column repeated over the columns: every
    operation is entry by entry, and the column's row r is read in row r only. -/
theorem blend_rows (h0 : S0.BroadcastsInDim SN (![] : Fin 0 → Fin SN.rank))
    (hcol : SC.BroadcastsInDim SN (![0, 1] : Fin 2 → Fin SN.rank))
    {G Fm Hh Tau : FVec Ideal SN .f32} {g f hh tau : FVec Ideal S4096x128 .f32}
    (T : FVec Ideal SC .f32) (tb : Vec Ideal S4096x1 .f32)
    (HG : IsRows 4096 t G g) (HF : IsRows 4096 t Fm f) (HH : IsRows 4096 t Hh hh) (HT : IsRows 4096 t Tau tau)
    (ht : IsRows 4096 t T tb) :
    IsRows 4096 t
      (addf (mulf (Host.tanh Hh) (subf (splat h0 0x3F800000#32)
          (gate h0 (mulf (addf Tau Fm) (broadcastInDim SN ![0, 1] hcol T)))))
        (mulf (Host.tanh G) (gate h0 (mulf (addf Tau Fm) (broadcastInDim SN ![0, 1] hcol T)))))
      (addf (mulf (tanh hh) (subf (broadcast S4096x128 (Scalar.ofBits (F := Ideal) .f32 0x3F800000#32))
          (logistic (mulf (addf tau f) (broadcastTo S4096x128 tb broadcasts_S4096x1_S4096x128)))))
        (mulf (tanh g) (logistic (mulf (addf tau f) (broadcastTo S4096x128 tb broadcasts_S4096x1_S4096x128))))) := by
  have Hσ := gate_rows h0 ((HT.add HF).mul (IsRows.col_bcast ht hcol broadcasts_S4096x1_S4096x128))
  exact (HH.tanhf.mul ((IsRows.splat .f32 0x3F800000#32 h0).sub Hσ)).add (HG.tanhf.mul Hσ)

end Stages2

/-! ## The head on a row block -/

theorem head_rows {t : ℕ} (D : DotDims SN SW SN) (hD : IsRows.Plain D 1 0 0 1)
    (h1 : SV.BroadcastsInDim SR (![1] : Fin 1 → Fin SR.rank))
    (h2 : SR.BroadcastsInDim SN (![0, 1] : Fin 2 → Fin SN.rank))
    (h0 : S0.BroadcastsInDim SN (![] : Fin 0 → Fin SN.rank))
    (hcol : SC.BroadcastsInDim SN (![0, 1] : Fin 2 → Fin SN.rank))
    (Z : FVec Ideal SN .f32) (T : FVec Ideal SC .f32) (mean inv gamma beta : FVec Ideal SV .f32)
    (Wg : FVec Ideal SW .f32) (bg : FVec Ideal SV .f32) (Wf : FVec Ideal SW .f32) (bf : FVec Ideal SV .f32)
    (Wh : FVec Ideal SW .f32) (bh : FVec Ideal SV .f32) (Wt : FVec Ideal SW .f32) (bt : FVec Ideal SV .f32)
    (z : Vec Ideal S4096x128 .f32) (tb : Vec Ideal S4096x1 .f32) (mean2 inv2 gamma2 beta2 : Vec Ideal S1x128 .f32)
    (wg : Vec Ideal S128x128 .f32) (bg2 : Vec Ideal S1x128 .f32) (wf : Vec Ideal S128x128 .f32) (bf2 : Vec Ideal S1x128 .f32)
    (wh : Vec Ideal S128x128 .f32) (bh2 : Vec Ideal S1x128 .f32) (wt : Vec Ideal S128x128 .f32) (bt2 : Vec Ideal S1x128 .f32)
    (hz : IsRows 4096 t Z z) (ht : IsRows 4096 t T tb)
    (hmean : ∀ j : Fin 128, mean2 (ix2 (0 : Fin 1) j) = mean (ix1 j)) (hinv : ∀ j : Fin 128, inv2 (ix2 (0 : Fin 1) j) = inv (ix1 j))
    (hgamma : ∀ j : Fin 128, gamma2 (ix2 (0 : Fin 1) j) = gamma (ix1 j)) (hbeta : ∀ j : Fin 128, beta2 (ix2 (0 : Fin 1) j) = beta (ix1 j))
    (hbg : ∀ j : Fin 128, bg2 (ix2 (0 : Fin 1) j) = bg (ix1 j)) (hbf : ∀ j : Fin 128, bf2 (ix2 (0 : Fin 1) j) = bf (ix1 j))
    (hbh : ∀ j : Fin 128, bh2 (ix2 (0 : Fin 1) j) = bh (ix1 j)) (hbt : ∀ j : Fin 128, bt2 (ix2 (0 : Fin 1) j) = bt (ix1 j))
    (hwg : wg = Wg) (hwf : wf = Wf) (hwh : wh = Wh) (hwt : wt = Wt) :
    IsRows 4096 t (head D h1 h2 h0 hcol Z T mean inv gamma beta Wg bg Wf bf Wh bh Wt bt)
      (out1_14 z tb mean2 inv2 gamma2 beta2 wg bg2 wf bf2 wh bh2 wt bt2) := by
  -- the whole-block rectangle at zero offsets: a load through it reads the block, the one store through it leaves its payload
  have h00 : (![0, 0] : Fin 2 → Nat) = fun _ => 0 := by funext a; fin_cases a <;> rfl
  -- the rectified block is rows 4096·t … of the rectified matrix
  have HA := leaky_rows h0 (zn_rows h1 h2 Z mean inv gamma beta z mean2 inv2 gamma2 beta2 hz hmean hinv hgamma hbeta)
  unfold out1_14
  rw [View.canon_unit_zero h00]
  simp only [View.ld_unit_zero (S := S4096x128) h00, View.ld_unit_zero (S := S1x128) h00,
    View.ld_unit_zero (S := S128x128) h00, View.ld_unit_zero (S := S4096x1) h00]
  unfold head mix
  -- the four affine maps of the rectified block, then the blend
  exact blend_rows h0 hcol T tb (affine_rows D hD h1 h2 HA Wg wg hwg bg bg2 hbg) (affine_rows D hD h1 h2 HA Wf wf hwf bf bf2 hbf)
    (affine_rows D hD h1 h2 HA Wh wh hwh bh bh2 hbh) (affine_rows D hD h1 h2 HA Wt wt hwt bt bt2 hbt) ht

end Cert.Hand.Region1Head

end
-- ==== Proof.ZReal.lean ====
/-
  The backbone's output is real when its inputs are.

  Entry (r, j) of ([x | h] · W0) · W1 is a finite sum of products of finite sums of products of entries of x, h, W0 and
  W1. Sums and products of real numbers are real, so if every entry of the four inputs is a real number (neither
  infinity), so is every entry of the product.
-/
import proofs.«113356_j38199439131313_1_alg».proof.Proof.LibStats
import proofs.«113356_j38199439131313_1_alg».proof.Proof.LibRowMean

noncomputable section

namespace Cert.Hand.ZReal

open Idealize.ShloMosaic Idealize.ShloMosaic.ValueIdx Cert.Hand.LibStats Cert.RowBlock

theorem z_isReal (D1 : DotDims ⟨2, ![131072, 256]⟩ ⟨2, ![256, 128]⟩ ⟨2, ![131072, 128]⟩) (hD1 : IsRows.Plain D1 1 0 0 1)
    (D2 : DotDims ⟨2, ![131072, 128]⟩ ⟨2, ![128, 128]⟩ ⟨2, ![131072, 128]⟩) (hD2 : IsRows.Plain D2 1 0 0 1)
    (hc : Shape.Concatenates [(⟨2, ![131072, 128]⟩ : Shape), ⟨2, ![131072, 128]⟩] ⟨2, ![131072, 256]⟩ 1)
    (X H : FVec Ideal ⟨2, ![131072, 128]⟩ .f32) (W0 : FVec Ideal ⟨2, ![256, 128]⟩ .f32) (W1 : FVec Ideal ⟨2, ![128, 128]⟩ .f32)
    (hX : ∀ i, IsReal (X i)) (hH : ∀ i, IsReal (H i)) (hW0 : ∀ i, IsReal (W0 i)) (hW1 : ∀ i, IsReal (W1 i))
    (r : Fin 131072) (j : Fin 128) :
    IsReal (Host.dotGeneral D2 none (Host.dotGeneral D1 none
      (concatenate ⟨2, ![131072, 256]⟩ 1 [⟨⟨2, ![131072, 128]⟩, X⟩, ⟨⟨2, ![131072, 128]⟩, H⟩] hc) W0) W1 (ix2 r j)) := by
  simp only [Host.dotGeneral]
  -- the outer product at (r, j): a sum over the 128 shared columns of (inner product at (r, k)) · W1 (k, j)
  rw [Ideal.dotGeneral_apply, IsRows.dot_plain_sum D2 hD2]
  refine IsReal.sum_univ _ fun k => IsReal.mul ?_ (hW1 _)
  -- the inner product at (r, k): a sum over the 256 shared columns of [X | H] (r, c) · W0 (c, k)
  rw [Ideal.dotGeneral_apply, IsRows.dot_plain_sum D1 hD1]
  refine IsReal.sum_univ _ fun c => IsReal.mul ?_ (hW0 _)
  -- column c of [X | H] is column c of X for c < 128 and column c − 128 of H otherwise
  by_cases hlt : c.val < 128
  · rw [IsRows.concat_cols_apply [⟨⟨2, ![131072, 128]⟩, X⟩, ⟨⟨2, ![131072, 128]⟩, H⟩] hc 0 (by simp) X rfl 0 rfl r c
      ⟨c.val, hlt⟩ (Nat.zero_add _)]
    exact hX _
  · have h2 : c.val - 128 < 128 := by have := c.isLt; omega
    have h3 : 128 + (c.val - 128) = c.val := by omega
    rw [IsRows.concat_cols_apply [⟨⟨2, ![131072, 128]⟩, X⟩, ⟨⟨2, ![131072, 128]⟩, H⟩] hc 1 (by simp) H rfl 128 rfl r c
      ⟨c.val - 128, h2⟩ h3]
    exact hH _

end Cert.Hand.ZReal

end
-- ==== Proof.Glue.lean ====
/-
  The kernel's result array is the reference's result term.

  The reference computes, stage by stage: z = ([x | h] · W0) · W1; per column the mean Σz/N and the two-pass variance
  Σ(z − mean)²/N, N = 131072; the reciprocal standard deviation rsqrt(var + ε); then the head of the network on z.
  The kernel computes z block by block, accumulates Σz and Σz² over the grid, and the host between its two regions
  forms mean = Σz/N and rsqrt(Σz²/N − mean² + ε): the one-pass variance. For real z the two variances are one number
  (expand the square), and z is real because x, h, W0 and W1 are finite; so both programs hand the same mean and
  the same reciprocal standard deviation to the same head, the kernel's on row blocks of 4096 rows.
-/
import proofs.«113356_j38199439131313_1_alg».proof.Proof.RefSide
import proofs.«113356_j38199439131313_1_alg».proof.Proof.KernelRun
import proofs.«113356_j38199439131313_1_alg».proof.Proof.Region0Acc
import proofs.«113356_j38199439131313_1_alg».proof.Proof.Region1Head
import proofs.«113356_j38199439131313_1_alg».proof.Proof.ZReal

noncomputable section

namespace Cert.Hand.Glue

open Cert.KernelIdeal Cert.KernelIdeal.Gen Cert.Hand.KBase Cert.Hand.Blocks Cert.RowBlock Cert.Hand.LibStats Cert.Hand.HeadSpec
open Idealize.ShloMosaic Idealize.ShloMosaic.TcCoe Idealize.ShloMosaic.ValueIdx Idealize.SL.Sem
open Cert.ReferenceIdeal.Read
open scoped BigOperators

variable (m : (ℓ : Loc nD τ sig) → Buf (Elt Ideal) ℓ) (ρ : Dev nD → PrngReg)

/-- The reference's records of the two plain products' dimension numbers. -/
abbrev Dcat := Cert.ReferenceIdeal.dot_S131072x256_S256x128_S131072x128_1_0_0_1_n_n
abbrev Dsq := Cert.ReferenceIdeal.dot_S131072x128_S128x128_S131072x128_1_0_0_1_n_n
theorem plain_cat : IsRows.Plain Dcat 1 0 0 1 := ⟨rfl, rfl, rfl, rfl, rfl, rfl⟩
theorem plain_sq : IsRows.Plain Dsq 1 0 0 1 := ⟨rfl, rfl, rfl, rfl, rfl, rfl⟩

/-- The reference's z. -/
abbrev zR (c : Dev nD) : FVec Ideal S131072x128 .f32 := val_main_v2 (F := Ideal) (xA m c) (hA m c) (w0A m c) (w1A m c)

theorem zR_eq (c : Dev nD) : zR m c
    = Region0.zHost Dcat Dsq Cert.ReferenceIdeal.Facts₀.concatenates_S131072x128_S131072x128_S131072x256_d1 (xA m c) (hA m c) (w0A m c) (w1A m c) := by
  unfold zR val_main_v2 val_main_v1 val_main_v0; rfl

/-- Every point's z block is the row block of the reference's z … -/
theorem z_rows (c : Dev nD) (t : Fin cfg0.N) : IsRows 4096 t.val (zR m c) ((outsAt0 (V1 m ρ) c t.val t.isLt).1) := by
  rw [zR_eq]; exact Region0.z_rows m ρ Dcat plain_cat Dsq plain_sq _ c t

/-- … so the kernel's z array is the reference's z, -/
theorem zK_eq (c : Dev nD) : zK m ρ c = zR m c := zK_of_rows m ρ c (zR m c) (z_rows m ρ c)

/-- and the accumulators end at its column sums and the column sums of its squares. -/
theorem sumK_eq (c : Dev nD) (j : Fin 128) : sumK m ρ c (ix2 (0 : Fin 1) j) = ∑ r : Fin 131072, zR m c (ix2 r j) := by
  rw [sumK_last]; exact Region0Acc.sum_acc m ρ c (zR m c) (z_rows m ρ c) j
theorem sqK_eq (c : Dev nD) (j : Fin 128) : sqK m ρ c (ix2 (0 : Fin 1) j) = ∑ r : Fin 131072, zR m c (ix2 r j) * zR m c (ix2 r j) := by
  rw [sqK_last]; exact Region0Acc.sq_acc m ρ c (zR m c) (z_rows m ρ c) j

/-! ## The statistics -/

/-- The reference's row index (k, j) as the two-coordinate index. -/
theorem idx_col (j : Fin 128) (k : Fin 131072) : idx_main_v3 (ix1 j) k = ix2 k j :=
  funext fun a => Fin.ext (by match a with | ⟨0, _⟩ => rfl | ⟨1, _⟩ => rfl)

/-- The kernel's mean row is the reference's mean vector. -/
theorem mean_eq (c : Dev nD) (j : Fin 128) :
    meanK m ρ c (ix2 (0 : Fin 1) j) = val_main_v5 (F := Ideal) (xA m c) (hA m c) (w0A m c) (w1A m c) (ix1 j) := by
  show Ideal.div (sumK m ρ c (ix2 (0 : Fin 1) j)) (Ideal.ofBits .f32 0x48000000#32) = _
  rw [val_main_v5_apply, val_main_v3_apply, val_main_v4_apply, sumK_eq]
  rw [val_main_cst_apply, val_main_cst_0_apply]
  simp only [idx_col]
  show _ = Ideal.div (Ideal.ofBits .f32 0x00000000#32 + ∑ k : Fin 131072, zR m c (ix2 k j)) (Ideal.ofBits .f32 0x48000000#32)
  rw [Ideal.ofBits_zero_f32, zero_add]

/-- Both means, as the quotient of the column sum by 131072. -/
theorem meanR_val (c : Dev nD) (j : Fin 128) :
    val_main_v5 (F := Ideal) (xA m c) (hA m c) (w0A m c) (w1A m c) (ix1 j)
      = Ideal.div (∑ r : Fin 131072, zR m c (ix2 r j)) ((131072 : ℝ) : EReal) := by
  rw [val_main_v5_apply, val_main_v3_apply, val_main_v4_apply, val_main_cst_apply, val_main_cst_0_apply]
  simp only [idx_col]
  show Ideal.div (Ideal.ofBits .f32 0x00000000#32 + ∑ k : Fin 131072, zR m c (ix2 k j)) (Ideal.ofBits .f32 0x48000000#32) = _
  rw [Ideal.ofBits_zero_f32, zero_add, Stats.ofBits_N]

/-- Column j of the reference's z is real when the four inputs of the backbone are. -/
theorem zR_real (c : Dev nD) (hx : ∀ i, IsReal (xA m c i)) (hh : ∀ i, IsReal (hA m c i)) (hw0 : ∀ i, IsReal (w0A m c i))
    (hw1 : ∀ i, IsReal (w1A m c i)) (r : Fin 131072) (j : Fin 128) : IsReal (zR m c (ix2 r j)) := by
  rw [zR_eq]; exact ZReal.z_isReal Dcat plain_cat Dsq plain_sq _ _ _ _ _ hx hh hw0 hw1 r j

/-- The kernel's reciprocal standard deviation row is the reference's vector: one pass against two. -/
theorem inv_eq (c : Dev nD) (hx : ∀ i, IsReal (xA m c i)) (hh : ∀ i, IsReal (hA m c i)) (hw0 : ∀ i, IsReal (w0A m c i))
    (hw1 : ∀ i, IsReal (w1A m c i)) (j : Fin 128) :
    invK m ρ c (ix2 (0 : Fin 1) j) = val_main_v18 (F := Ideal) (xA m c) (hA m c) (w0A m c) (w1A m c) (ix1 j) := by
  show Ideal.rsqrt ((Ideal.div (sqK m ρ c (ix2 (0 : Fin 1) j)) (Ideal.ofBits .f32 0x48000000#32)
      - meanK m ρ c (ix2 (0 : Fin 1) j) * meanK m ρ c (ix2 (0 : Fin 1) j)) + Ideal.ofBits .f32 0x3727C5AC#32) = _
  rw [val_main_v18_apply, val_main_v17_apply, val_main_v12_apply, val_main_v10_apply, val_main_v11_apply, val_main_v16_apply]
  have hi : ∀ k : Fin 131072, idx_main_v10 (ix1 j) k = ix2 k j := fun k =>
    funext fun a => Fin.ext (by match a with | ⟨0, _⟩ => rfl | ⟨1, _⟩ => rfl)
  have hm : ∀ k : Fin 131072, val_main_v7 (F := Ideal) (xA m c) (hA m c) (w0A m c) (w1A m c) (ix2 k j)
      = val_main_v5 (F := Ideal) (xA m c) (hA m c) (w0A m c) (w1A m c) (ix1 j) := fun k => by
    rw [val_main_v7_apply, val_main_v6_apply]
    exact congrArg _ (funext fun a => Fin.ext (by match a with | ⟨0, _⟩ => rfl))
  simp only [hi, val_main_v9_apply, val_main_v8_apply, hm]
  rw [val_main_cst_1_apply, val_main_cst_2_apply, val_main_cst_3_apply, mean_eq, meanR_val, sqK_eq]
  show _ = Ideal.rsqrt (Ideal.div (Ideal.ofBits .f32 0x00000000#32 + ∑ k : Fin 131072,
      (zR m c (ix2 k j) - Ideal.div (∑ r : Fin 131072, zR m c (ix2 r j)) ((131072 : ℝ) : EReal))
        * (zR m c (ix2 k j) - Ideal.div (∑ r : Fin 131072, zR m c (ix2 r j)) ((131072 : ℝ) : EReal)))
      (Ideal.ofBits .f32 0x48000000#32) + Ideal.ofBits .f32 0x3727C5AC#32)
  rw [Ideal.ofBits_zero_f32, zero_add, Stats.ofBits_N,
    Stats.var_onepass (fun r => zR m c (ix2 r j)) (fun r => zR_real m c hx hh hw0 hw1 r j)]

/-! ## The head -/

abbrev b1 := Cert.ReferenceIdeal.Facts₀.bcast_S128_S1x128_1
abbrev b2 := Cert.ReferenceIdeal.Facts₀.bcast_S1x128_S131072x128_0_1
abbrev b0 := Cert.ReferenceIdeal.Facts₀.bcast_S_S131072x128
abbrev bcol := Cert.ReferenceIdeal.Facts₀.bcast_S131072x1_S131072x128_0_1

/-- The reference's mean and reciprocal standard deviation vectors. -/
abbrev meanR (c : Dev nD) : FVec Ideal SV .f32 := val_main_v5 (F := Ideal) (xA m c) (hA m c) (w0A m c) (w1A m c)
abbrev invR (c : Dev nD) : FVec Ideal SV .f32 := val_main_v18 (F := Ideal) (xA m c) (hA m c) (w0A m c) (w1A m c)

set_option maxRecDepth 8192 in
/-- The reference's last stage is the head of its z at its statistics. -/
theorem ref_is_head (c : Dev nD) :
    val_main_v64 (F := Ideal) (xA m c) (hA m c) (tA m c) (w0A m c) (w1A m c) (gammaA m c) (betaA m c) (wgA m c) (bgA m c) (wfA m c) (bfA m c) (whA m c) (bhA m c) (wtA m c) (btA m c)
      = head Dsq b1 b2 b0 bcol (zR m c) (tA m c) (meanR m c) (invR m c) (gammaA m c) (betaA m c)
          (wgA m c) (bgA m c) (wfA m c) (bfA m c) (whA m c) (bhA m c) (wtA m c) (btA m c) := by
  rfl

/-- What point t of region 1 writes back is the row block of the head of the reference's z at the reference's
    statistics: the kernel's z array is that z, its mean and reciprocal-standard-deviation rows are those vectors, and
    every other operand is the launch contents, re-laid as a row where the kernel wants one. -/
theorem out_rows (c : Dev nD) (hx : ∀ i, IsReal (xA m c i)) (hh : ∀ i, IsReal (hA m c i)) (hw0 : ∀ i, IsReal (w0A m c i))
    (hw1 : ∀ i, IsReal (w1A m c i)) (t : Fin cfg1.N) :
    IsRows 4096 t.val
      (head Dsq b1 b2 b0 bcol (zR m c) (tA m c) (meanR m c) (invR m c) (gammaA m c) (betaA m c)
        (wgA m c) (bgA m c) (wfA m c) (bfA m c) (whA m c) (bhA m c) (wtA m c) (btA m c))
      (out1_14 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) (iblk1 (V3 m ρ) c 13 t)) :=
  Region1Head.head_rows Dsq plain_sq b1 b2 b0 bcol (zR m c) (tA m c) (meanR m c) (invR m c) (gammaA m c) (betaA m c)
    (wgA m c) (bgA m c) (wfA m c) (bfA m c) (whA m c) (bhA m c) (wtA m c) (btA m c)
    (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) (iblk1 (V3 m ρ) c 13 t)
    (zK_eq m ρ c ▸ iblk1_z m ρ c t) (iblk1_t m ρ c t)
    (fun j => (congrFun (iblk1_mean m ρ c t) (ix2 (0 : Fin 1) j)).trans (mean_eq m ρ c j))
    (fun j => (congrFun (iblk1_inv m ρ c t) (ix2 (0 : Fin 1) j)).trans (inv_eq m ρ c hx hh hw0 hw1 j))
    (fun j => (congrFun (iblk1_gamma m ρ c t) (ix2 (0 : Fin 1) j)).trans (shapeCast_a_1a_apply (gammaA m c) _ (0 : Fin 1) j))
    (fun j => (congrFun (iblk1_beta m ρ c t) (ix2 (0 : Fin 1) j)).trans (shapeCast_a_1a_apply (betaA m c) _ (0 : Fin 1) j))
    (fun j => (congrFun (iblk1_bg m ρ c t) (ix2 (0 : Fin 1) j)).trans (shapeCast_a_1a_apply (bgA m c) _ (0 : Fin 1) j))
    (fun j => (congrFun (iblk1_bf m ρ c t) (ix2 (0 : Fin 1) j)).trans (shapeCast_a_1a_apply (bfA m c) _ (0 : Fin 1) j))
    (fun j => (congrFun (iblk1_bh m ρ c t) (ix2 (0 : Fin 1) j)).trans (shapeCast_a_1a_apply (bhA m c) _ (0 : Fin 1) j))
    (fun j => (congrFun (iblk1_bt m ρ c t) (ix2 (0 : Fin 1) j)).trans (shapeCast_a_1a_apply (btA m c) _ (0 : Fin 1) j))
    (iblk1_wg m ρ c t) (iblk1_wf m ρ c t) (iblk1_wh m ρ c t) (iblk1_wt m ρ c t)

/-- THE VALUE: for finite x, h, W0 and W1 the kernel's result array is the reference's result term of the launch
    contents. -/
theorem kernel_value (c : Dev nD) (hx : ∀ i, IsReal (xA m c i)) (hh : ∀ i, IsReal (hA m c i)) (hw0 : ∀ i, IsReal (w0A m c i))
    (hw1 : ∀ i, IsReal (w1A m c i)) :
    outK m ρ c = val_main_v64 (F := Ideal) (xA m c) (hA m c) (tA m c) (w0A m c) (w1A m c) (gammaA m c) (betaA m c) (wgA m c) (bgA m c) (wfA m c) (bfA m c) (whA m c) (bhA m c) (wtA m c) (btA m c) := by
  rw [ref_is_head]
  exact outK_of_rows m ρ c _ (out_rows m ρ c hx hh hw0 hw1)

end Cert.Hand.Glue

end
-- ==== Proof.Finite.lean ====
/-
  The precondition, read: every entry of x, h, W0 and W1 is a real number.

  The precondition is the conjunction, over the fifteen inputs, of "every entry's absolute value is below +infinity".
  An extended real whose absolute value is below +infinity is neither infinity: it is a real number. Only the four
  inputs the backbone multiplies are needed here.
-/
import proofs.«113356_j38199439131313_1_alg».proof.Proof.Gen.Pre_finite_inputs
import proofs.«113356_j38199439131313_1_alg».proof.Proof.LibStats
import Idealize.ShloMosaic.Lib.ReduceAll
import Idealize.ShloMosaic.Lib.ValueIdx

noncomputable section

namespace Cert.Hand.Finite

open Idealize.ShloMosaic Cert.Hand.LibStats Cert.Pre_finite_inputs

variable [Cert.Pre_finite_inputs.Facts]

/-- The single-precision word 0x7F800000 denotes +infinity. -/
theorem inf_word : Ideal.ofBits .f32 0x7F800000#32 = (⊤ : EReal) := by simp [Ideal.ofBits, Ideal.ieee]

/-- An extended real whose absolute value max x (−x) is strictly below +infinity is a real number: at x = +infinity the
    maximum is +infinity, and at x = −infinity it is −(−infinity) = +infinity. -/
theorem isReal_of_abs_lt (x : Ideal .f32)
    (h : FloatOps.cmpf .olt (FloatOps.hostAbsf x) (Ideal.ofBits .f32 0x7F800000#32) = 1#1) : IsReal x := by
  rw [inf_word] at h
  have h1 : max x (-x) < (⊤ : EReal) := by
    by_contra hc
    have : FloatOps.cmpf .olt (FloatOps.hostAbsf x) (⊤ : EReal) = 0#1 := by
      show BitVec.ofBool (decide (max x (-x) < (⊤ : EReal))) = 0#1
      rw [decide_eq_false hc]; rfl
    rw [this] at h
    exact absurd h (by decide)
  rw [isReal_iff]
  induction x using EReal.rec with
  | bot => exact absurd h1 (by simp)
  | top => exact absurd h1 (by simp)
  | coe r => exact ⟨EReal.coe_ne_bot r, EReal.coe_ne_top r⟩

/-- The shape of rank zero has one index. -/
instance subsingleton_scalar_idx : Subsingleton S_.Idx := ⟨fun a b => funext fun d => d.elim0⟩

/-- One conjunct of the precondition: if the conjunction, over all entries of an array a, of (|a| < +infinity) is one,
    every entry of a is a real number. -/
theorem all_real {s : Shape} {axes : List (Fin s.rank)} (hb : S_.BroadcastsInDim s (![] : Fin 0 → Fin s.rank))
    (hr : s.ReducesTo axes S_) (hu : 0 < S_.numel) (a : FVec Ideal s .f32) (init : IVec S_ 1)
    (e : Host.reduce IntOp.andi
        (cmpf .olt (Host.absf a) (broadcastInDim s ![] hb (constant (F := Ideal) S_ .f32 0x7F800000#32))) init hr hu
      ValueIdx.ix0 = 1#1) (i : s.Idx) : IsReal (a i) :=
  isReal_of_abs_lt (a i) (Host.reduce_andi_all _ init hr hu ValueIdx.ix0 e i)

/-- If the precondition's predicate is all ones on fifteen arrays, every entry of the first, the second, the fourth and
    the fifth is a real number. -/
theorem real_of_pre (a0 a1 : FVec Ideal S131072x128 .f32) (a2 : FVec Ideal S131072x1 .f32) (a3 : FVec Ideal S256x128 .f32)
    (a4 : FVec Ideal S128x128 .f32) (a5 a6 : FVec Ideal S128 .f32) (a7 : FVec Ideal S128x128 .f32) (a8 : FVec Ideal S128 .f32)
    (a9 : FVec Ideal S128x128 .f32) (a10 : FVec Ideal S128 .f32) (a11 : FVec Ideal S128x128 .f32) (a12 : FVec Ideal S128 .f32)
    (a13 : FVec Ideal S128x128 .f32) (a14 : FVec Ideal S128 .f32)
    (h : Cert.Pre_finite_inputs.fn (F := Ideal) a0 a1 a2 a3 a4 a5 a6 a7 a8 a9 a10 a11 a12 a13 a14 = fun _ => 1#1) :
    (∀ i, IsReal (a0 i)) ∧ (∀ i, IsReal (a1 i)) ∧ (∀ i, IsReal (a3 i)) ∧ (∀ i, IsReal (a4 i)) := by
  -- The predicate at its one index is a conjunction of fifteen "all entries" words, nested to the left.
  have h0 := congrFun h ValueIdx.ix0
  dsimp only [fn, fn_part1, fn_part2, fn_part3, fn_part4, andi] at h0
  -- A conjunction of one-bit words is one exactly when each word is one.
  simp only [IntOp.andi_eq_one] at h0
  obtain ⟨⟨⟨⟨⟨⟨⟨⟨⟨⟨⟨⟨⟨⟨e0, e1⟩, _⟩, e3⟩, e4⟩, _⟩, _⟩, _⟩, _⟩, _⟩, _⟩, _⟩, _⟩, _⟩, _⟩ := h0
  exact ⟨all_real _ _ _ a0 _ e0, all_real _ _ _ a1 _ e1, all_real _ _ _ a3 _ e3, all_real _ _ _ a4 _ e4⟩

end Cert.Hand.Finite

end
-- ==== Proof.lean ====
/-
  The certificate: the fused backbone + batch-normalised gated head, in two streamed passes, against its jnp reference.

  The three frames: the two kernels' are the generated frame certificates; the reference's is its generated run with
  the result dropped. The idealisation rewrote nothing. The value: at the exact instance the kernel's result array is
  the reference's result term of the same inputs (Proof/Glue.lean) — the kernel's block-wise products are row blocks
  of the reference's products, its two accumulated sums are the whole column sums, the host's one-pass variance between
  the passes is the reference's two-pass variance because the backbone's output is real for finite inputs, and the head
  treats rows independently.
-/
import proofs.«113356_j38199439131313_1_alg».proof.Defs
import proofs.«113356_j38199439131313_1_alg».proof.Proof.Gen.Kernel
import proofs.«113356_j38199439131313_1_alg».proof.Proof.Gen.Kernel.Frame
import proofs.«113356_j38199439131313_1_alg».proof.Proof.Gen.KernelIdeal
import proofs.«113356_j38199439131313_1_alg».proof.Proof.Gen.KernelIdeal.Frame
import proofs.«113356_j38199439131313_1_alg».proof.Proof.Gen.ReferenceIdeal
import proofs.«113356_j38199439131313_1_alg».proof.Proof.Gen.Pre_finite_inputs
import proofs.«113356_j38199439131313_1_alg».proof.Proof.Glue
import proofs.«113356_j38199439131313_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the fifteen inputs both programs run, and the kernel's result array is the
    reference's: the reference's run ends at its result term of its own inputs, which are the kernel's, and for finite
    inputs that term is what the kernel's array holds. -/
theorem algebraic : Cert.algebraic_KernelIdeal_ReferenceIdeal := by
  intro m ρ m' ρ' hpre hagree
  refine ⟨fun c => Cert.Hand.Blocks.outK m ρ c, Cert.KernelIdeal.GenV.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hh, hw0, hw1⟩ := Cert.Hand.Finite.real_of_pre _ _ _ _ _ _ _ _ _ _ _ _ _ _ _ (hpre c)
  obtain ⟨e0, e1, e2, e3, e4, e5, e6, e7, e8, e9, e10, e11, e12, e13, e14⟩ := hagree c
  rw [Cert.ReferenceIdeal.Read.val_main_v64_eq, e0, e1, e2, e3, e4, e5, e6, e7, e8, e9, e10, e11, e12, e13, e14]
  exact (Cert.Hand.Glue.kernel_value m ρ c hx hh hw0 hw1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
